-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32768x512 : Shape := ⟨3, ![8, 32768, 512]⟩
abbrev S256x512 : Shape := ⟨2, ![256, 512]⟩
abbrev S_ : Shape := ⟨0, ![]⟩

class Facts : Prop where
  bcast_S_S8x32768x512 : S_.BroadcastsInDim S8x32768x512 (![] : Fin 0 → Fin S8x32768x512.rank)
  reducesTo_S8x32768x512_S_d0_1_2 : S8x32768x512.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8x32768x512 .f32) (main_arg1 : FVec F S256x512 .f32) : IVec S_ 1 :=
  let main_v0 : FVec F S8x32768x512 .f32 := Host.absf main_arg0
  let main_cst : FVec F S_ .f32 := constant S_ .f32 0x7F800000#32
  let main_v1 : FVec F S8x32768x512 .f32 := broadcastInDim S8x32768x512 ![] bcast_S_S8x32768x512 main_cst
  let main_v2 : IVec S8x32768x512 1 := cmpf .olt main_v0 main_v1
  let main_c : IVec S_ 1 := constantI S_ 1 1#1
  let main_v3 : IVec S_ 1 := (fun x v => Host.reduce IntOp.andi x v reducesTo_S8x32768x512_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Kernel.lean ====
abbrev S8x32768x512 : Shape := ⟨3, ![8, 32768, 512]⟩
abbrev S256x512 : Shape := ⟨2, ![256, 512]⟩
abbrev S_ : Shape := ⟨0, ![]⟩
abbrev S8x256x512 : Shape := ⟨3, ![8, 256, 512]⟩
abbrev S1x8192x512 : Shape := ⟨3, ![1, 8192, 512]⟩
abbrev S1x256x512 : Shape := ⟨3, ![1, 256, 512]⟩
abbrev S256x128 : Shape := ⟨2, ![256, 128]⟩
abbrev S8192x512 : Shape := ⟨2, ![8192, 512]⟩
abbrev S256x8192 : Shape := ⟨2, ![256, 8192]⟩
abbrev S256x1 : Shape := ⟨2, ![256, 1]⟩
abbrev S256 : Shape := ⟨1, ![256]⟩

abbrev nBuf : Space → Nat
  | .hbm => 7
  | .vmem => 8
  | .smem => 0
  | _ => 0

abbrev bufTy : (tb : Table) → Fin (tcTables nBuf tb) → BufTy
  | .hbm, ⟨0, _⟩ => ⟨S8x32768x512, .f32⟩
  | .hbm, ⟨1, _⟩ => ⟨S256x512, .f32⟩
  | .hbm, ⟨2, _⟩ => ⟨S_, .f32⟩
  | .hbm, ⟨3, _⟩ => ⟨S256x512, .f32⟩
  | .hbm, ⟨4, _⟩ => ⟨S256x512, .f32⟩
  | .hbm, ⟨5, _⟩ => ⟨S256x512, .bf16⟩
  | .hbm, ⟨6, _⟩ => ⟨S8x256x512, .f32⟩
  | .local _ .vmem, ⟨0, _⟩ => ⟨S256x512, .bf16⟩
  | .local _ .vmem, ⟨1, _⟩ => ⟨S1x8192x512, .f32⟩
  | .local _ .vmem, ⟨2, _⟩ => ⟨S1x8192x512, .f32⟩
  | .local _ .vmem, ⟨3, _⟩ => ⟨S1x256x512, .f32⟩
  | .local _ .vmem, ⟨4, _⟩ => ⟨S1x256x512, .f32⟩
  | .local _ .vmem, ⟨5, _⟩ => ⟨S256x512, .f32⟩
  | .local _ .vmem, ⟨6, _⟩ => ⟨S256x128, .f32⟩
  | .local _ .vmem, ⟨7, _⟩ => ⟨S256x128, .f32⟩
  | _, _ => ⟨S8x32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_20 : BitVec 32 := 0#32
  let v40 : BitVec 1 := Scalar.cmpi .ne v39 c0_i32_20
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S256x512 : S_.BroadcastsInDim S256x512 (![] : Fin 0 → Fin S256x512.rank)
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x8192x512_S1x8192x512_0_0_0 : ∀ a, (![0, 0, 0] : Fin 3 → Nat) a + S1x8192x512.size a ≤ S1x8192x512.size a
  h_S1x8192x512 : 0 < S1x8192x512.numel
  shapeCasts_S1x8192x512_S8192x512 : S1x8192x512.ShapeCasts S8192x512
  inb_S256x128_S256x1_0_0 : ∀ a, (![0, 0] : Fin 2 → Nat) a + S256x1.size a ≤ S256x128.size a
  h_S256x1 : 0 < S256x1.numel
  reduces_S256x8192_S256 : S256x8192.Reduces [1] S256
  shapeCasts_S256_S256x1 : S256.ShapeCasts S256x1
  broadcasts_S256x1_S256x8192 : S256x1.Broadcasts S256x8192
  shapeCasts_S256x1_S256x1 : S256x1.ShapeCasts S256x1
  broadcasts_S256x1_S256x512 : S256x1.Broadcasts S256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  dot_S256x512_S8192x512_S256x8192_1_1_0_0_n_n_wf : DotDims.WF S256x512 S8192x512 S256x8192 [1] [1] [0] [0] [] []
  dot_S256x8192_S8192x512_S256x512_1_0_0_1_n_n_wf : DotDims.WF S256x8192 S8192x512 S256x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x512.size a
  hwx0_0 : ∀ i : grid0.Coords, EltTy.bits .bf16 = 32 ∨ (Rect.block (s := S256x512) S256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x512.size a ≤ S8x32768x512.size a
  hwx0_1 : ∀ i : grid0.Coords, EltTy.bits .f32 = 32 ∨ (Rect.block (s := S8x32768x512) S1x8192x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S8x256x512.size a
  hwx0_2 : ∀ i : grid0.Coords, EltTy.bits .f32 = 32 ∨ (Rect.block (s := S8x256x512) S1x256x512.size (cc0_transform_2 i) (hinb0_2 i)).WholeWords (EltTy.packing .f32)

variable [Facts₀]

def dot_S256x512_S8192x512_S256x8192_1_1_0_0_n_n : DotDims S256x512 S8192x512 S256x8192 where
  lhsContracting := [1]
  rhsContracting := [1]
  lhsNonContracting := [0]
  rhsNonContracting := [0]
  lhsBatch := []
  rhsBatch := []
  wf := dot_S256x512_S8192x512_S256x8192_1_1_0_0_n_n_wf
def dot_S256x8192_S8192x512_S256x512_1_0_0_1_n_n : DotDims S256x8192 S8192x512 S256x512 where
  lhsContracting := [1]
  rhsContracting := [0]
  lhsNonContracting := [0]
  rhsNonContracting := [1]
  lhsBatch := []
  rhsBatch := []
  wf := dot_S256x8192_S8192x512_S256x512_1_0_0_1_n_n_wf

abbrev win0_0 : Pipeline.Window sig grid0 :=
  Pipeline.Window.ofSpec (Memref.whole main_v2) S256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x8192x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x32768x512 : Shape := ⟨3, ![8, 32768, 512]⟩
abbrev S256x512 : Shape := ⟨2, ![256, 512]⟩
abbrev S8x32768x256 : Shape := ⟨3, ![8, 32768, 256]⟩
abbrev S8x256x32768 : Shape := ⟨3, ![8, 256, 32768]⟩
abbrev S_ : Shape := ⟨0, ![]⟩
abbrev S8x256 : Shape := ⟨2, ![8, 256]⟩
abbrev S8x256x1 : Shape := ⟨3, ![8, 256, 1]⟩
abbrev S8x256x512 : Shape := ⟨3, ![8, 256, 512]⟩

abbrev nBuf : Space → Nat
  | .hbm => 22
  | .vmem => 0
  | .smem => 0
  | _ => 0

abbrev bufTy : (tb : Table) → Fin (tcTables nBuf tb) → BufTy
  | .hbm, ⟨0, _⟩ => ⟨S8x32768x512, .f32⟩
  | .hbm, ⟨1, _⟩ => ⟨S256x512, .f32⟩
  | .hbm, ⟨2, _⟩ => ⟨S8x32768x256, .f32⟩
  | .hbm, ⟨3, _⟩ => ⟨S8x256x32768, .f32⟩
  | .hbm, ⟨4, _⟩ => ⟨S_, .f32⟩
  | .hbm, ⟨5, _⟩ => ⟨S8x256x32768, .f32⟩
  | .hbm, ⟨6, _⟩ => ⟨S8x256x32768, .f32⟩
  | .hbm, ⟨7, _⟩ => ⟨S_, .f32⟩
  | .hbm, ⟨8, _⟩ => ⟨S8x256, .f32⟩
  | .hbm, ⟨9, _⟩ => ⟨S_, .f32⟩
  | .hbm, ⟨10, _⟩ => ⟨S8x256, .f32⟩
  | .hbm, ⟨11, _⟩ => ⟨S8x256, .f32⟩
  | .hbm, ⟨12, _⟩ => ⟨S8x256x1, .f32⟩
  | .hbm, ⟨13, _⟩ => ⟨S8x256x32768, .f32⟩
  | .hbm, ⟨14, _⟩ => ⟨S8x256x32768, .f32⟩
  | .hbm, ⟨15, _⟩ => ⟨S8x256x32768, .f32⟩
  | .hbm, ⟨16, _⟩ => ⟨S_, .f32⟩
  | .hbm, ⟨17, _⟩ => ⟨S8x256, .f32⟩
  | .hbm, ⟨18, _⟩ => ⟨S8x256x1, .f32⟩
  | .hbm, ⟨19, _⟩ => ⟨S8x256x32768, .f32⟩
  | .hbm, ⟨20, _⟩ => ⟨S8x256x32768, .f32⟩
  | .hbm, ⟨21, _⟩ => ⟨S8x256x512, .f32⟩
  | _, _ => ⟨S8x32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S8x32768x256_S8x256x32768_0_2_1 : S8x32768x256.Transposes [0, 2, 1] S8x256x32768
  bcast_S_S8x256x32768 : S_.BroadcastsInDim S8x256x32768 (![] : Fin 0 → Fin S8x256x32768.rank)
  reducesTo_S8x256x32768_S8x256_d2 : S8x256x32768.ReducesTo [2] S8x256
  h_S_ : 0 < S_.numel
  bcast_S_S8x256 : S_.BroadcastsInDim S8x256 (![] : Fin 0 → Fin S8x256.rank)
  bcast_S8x256_S8x256x1_0_1 : S8x256.BroadcastsInDim S8x256x1 (![0, 1] : Fin 2 → Fin S8x256x1.rank)
  bcast_S8x256x1_S8x256x32768_0_1_2 : S8x256x1.BroadcastsInDim S8x256x32768 (![0, 1, 2] : Fin 3 → Fin S8x256x32768.rank)
  dot_S8x32768x512_S256x512_S8x32768x256_2_1_01_0_n_n_wf : DotDims.WF S8x32768x512 S256x512 S8x32768x256 [2] [1] [0, 1] [0] [] []
  dot_S8x256x32768_S8x32768x512_S8x256x512_2_1_1_2_0_0_wf : DotDims.WF S8x256x32768 S8x32768x512 S8x256x512 [2] [1] [1] [2] [0] [0]

variable [Facts₀]

def dot_S8x32768x512_S256x512_S8x32768x256_2_1_01_0_n_n : DotDims S8x32768x512 S256x512 S8x32768x256 where
  lhsContracting := [2]
  rhsContracting := [1]
  lhsNonContracting := [0, 1]
  rhsNonContracting := [0]
  lhsBatch := []
  rhsBatch := []
  wf := dot_S8x32768x512_S256x512_S8x32768x256_2_1_01_0_n_n_wf
def dot_S8x256x32768_S8x32768x512_S8x256x512_2_1_1_2_0_0 : DotDims S8x256x32768 S8x32768x512 S8x256x512 where
  lhsContracting := [2]
  rhsContracting := [1]
  lhsNonContracting := [1]
  rhsNonContracting := [2]
  lhsBatch := [0]
  rhsBatch := [0]
  wf := dot_S8x256x32768_S8x32768x512_S8x256x512_2_1_1_2_0_0_wf

class Facts : Prop extends Facts₀ where

variable [Facts]
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.OnlineSoftmax.lean ====
/-
  Softmax pooling over the reals.

  For logits `s` and values `x` over a finite index set, the pooled value is the weighted mean
  `(∑ exp(sᵢ)·xᵢ) / (∑ exp(sᵢ))`.  Three facts are proved here, all over ℝ:

  * shifting every logit by one real `m` changes neither numerator/denominator ratio
    (`pooled_shift`), because both are multiplied by `exp(-m)`;
  * normalising the shifted weights first and averaging afterwards gives the same number
    (`weights_mean`);
  * partial numerators and denominators taken relative to a base `m` are re-based to `m'` by
    the factor `exp(m - m')` (`rebase_num`, `rebase_den`): this is the update of a running
    (base, denominator, numerator) triple when a new chunk of logits arrives.

  The last lemma re-indexes a sum over 4 chunks of 8192 as one sum over 32768.
-/
import Mathlib.Analysis.SpecialFunctions.Exp
import Mathlib.Algebra.BigOperators.Fin
import Mathlib.Algebra.BigOperators.Field
import Mathlib.Algebra.Order.BigOperators.Ring.Finset
import Mathlib.Logic.Equiv.Fin.Basic

namespace OnlineSoftmax

open Finset

variable {ι : Type*}

/-- `exp(a - m)·exp(m - m') = exp(a - m')`. -/
theorem exp_sub_mul_exp (a m m' : ℝ) : Real.exp (a - m) * Real.exp (m - m') = Real.exp (a - m') := by
  rw [← Real.exp_add]; congr 1; ring

/-- A partial numerator relative to base `m`, times `exp(m - m')`, is the same partial numerator relative to `m'`. -/
theorem rebase_num (A : Finset ι) (s x : ι → ℝ) (m m' : ℝ) :
    (∑ i ∈ A, Real.exp (s i - m) * x i) * Real.exp (m - m') = ∑ i ∈ A, Real.exp (s i - m') * x i := by
  rw [Finset.sum_mul]
  refine Finset.sum_congr rfl fun i _ => ?_
  rw [mul_right_comm, exp_sub_mul_exp]

/-- The same for a partial denominator. -/
theorem rebase_den (A : Finset ι) (s : ι → ℝ) (m m' : ℝ) :
    (∑ i ∈ A, Real.exp (s i - m)) * Real.exp (m - m') = ∑ i ∈ A, Real.exp (s i - m') := by
  rw [Finset.sum_mul]
  exact Finset.sum_congr rfl fun i _ => exp_sub_mul_exp _ _ _

/-- A denominator over a nonempty set is positive. -/
theorem den_pos (A : Finset ι) (hA : A.Nonempty) (s : ι → ℝ) (m : ℝ) : 0 < ∑ i ∈ A, Real.exp (s i - m) :=
  Finset.sum_pos (fun _ _ => Real.exp_pos _) hA

/-- The pooled value does not depend on the base the logits are taken relative to. -/
theorem pooled_shift (A : Finset ι) (s x : ι → ℝ) (m : ℝ) :
    (∑ i ∈ A, Real.exp (s i - m) * x i) / (∑ i ∈ A, Real.exp (s i - m))
      = (∑ i ∈ A, Real.exp (s i) * x i) / (∑ i ∈ A, Real.exp (s i)) := by
  have h1 := rebase_num A s x m 0
  have h2 := rebase_den A s m 0
  simp only [sub_zero] at h1 h2
  rw [← h1, ← h2, mul_div_mul_right _ _ (Real.exp_pos m).ne']

/-- Normalised weights first, the mean afterwards: the same pooled value. -/
theorem weights_mean (A : Finset ι) (s x : ι → ℝ) (M : ℝ) :
    ∑ i ∈ A, (Real.exp (s i - M) / ∑ j ∈ A, Real.exp (s j - M)) * x i
      = (∑ i ∈ A, Real.exp (s i) * x i) / (∑ i ∈ A, Real.exp (s i)) := by
  rw [← pooled_shift A s x M, Finset.sum_div]
  exact Finset.sum_congr rfl fun i _ => by rw [div_mul_eq_mul_div]

/-- Position `k` of chunk `p` among 4 chunks of 8192, as an index below 32768 (total in `p`: reduced mod 32768). -/
def chunkIdx (p : ℕ) (k : Fin 8192) : Fin 32768 := ⟨(8192 * p + k.val) % 32768, Nat.mod_lt _ (by norm_num)⟩

theorem chunkIdx_val (p : ℕ) (hp : p < 4) (k : Fin 8192) : (chunkIdx p k).val = 8192 * p + k.val := by
  have := k.isLt
  show (8192 * p + k.val) % 32768 = _
  omega

/-- Four chunks of 8192 exhaust the 32768 positions: a sum chunk by chunk is the sum over all positions. -/
theorem sum_chunks (g : Fin 32768 → ℝ) :
    ∑ p ∈ Finset.range 4, ∑ k : Fin 8192, g (chunkIdx p k) = ∑ n : Fin 32768, g n := by
  rw [Finset.sum_range (f := fun p => ∑ k : Fin 8192, g (chunkIdx p k))]
  rw [← Fintype.sum_prod_type' (f := fun (p : Fin 4) (k : Fin 8192) => g (chunkIdx p.val k))]
  refine Fintype.sum_equiv (finProdFinEquiv (m := 4) (n := 8192)) _ g fun x => congrArg g (Fin.ext ?_)
  rw [chunkIdx_val _ x.1.isLt]
  show 8192 * x.1.val + x.2.val = x.2.val + 8192 * x.1.val
  omega

end OnlineSoftmax
-- ==== Proof.Spec.lean ====
/-
  The pooled-attention function both programs compute, stated once over the argument arrays.

  For a value array `x : [8, 32768, 512]` and a query array `q : [256, 512]` whose entries are real,
  batch `b`, query row `r` and position `n` have the logit `∑_c q[r,c]·κ·x[b,n,c]` (`κ` the real the
  scale pattern denotes), and the pooled output at `(b, r, c)` is the mean of `x[b,·,c]` weighted by the
  exponentials of the logits.  No maximum appears: a softmax is invariant under a common shift of its
  logits (OnlineSoftmax.pooled_shift), so whatever finite base either program subtracts cancels.
-/
import Idealize.ShloMosaic.PureOps.Ideal
import Idealize.ShloMosaic.Lib.ValueIdx
import proofs.«142094_g30648886624911_feedfinal_492_9_alg».proof.Proof.OnlineSoftmax

noncomputable section

namespace AttnPool

open Idealize.ShloMosaic Idealize.ShloMosaic.ValueIdx

/-- The value array's, the query array's and the output's shapes. -/
abbrev SX : Shape := ⟨3, ![8, 32768, 512]⟩
abbrev SQ : Shape := ⟨2, ![256, 512]⟩
abbrev SO : Shape := ⟨3, ![8, 256, 512]⟩

/-- Every entry of an array of extended reals is a real number. -/
def AllReal {S : Shape} (x : S.Idx → EReal) : Prop := ∀ i, x i ≠ ⊥ ∧ x i ≠ ⊤

theorem AllReal.coe {S : Shape} {x : S.Idx → EReal} (h : AllReal x) (i : S.Idx) : x i = ((x i).toReal : EReal) :=
  (EReal.coe_toReal (h i).2 (h i).1).symm

/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split <;> exact ⟨_, rfl⟩

/-- The scale both programs multiply by: the pattern of `float32(512 ** -0.5)`; it denotes a real. -/
def κ : EReal := Ideal.ofBits .f32 0x3D3504F3#32
def κr : ℝ := κ.toReal
theorem κ_coe : κ = (κr : EReal) := by
  obtain ⟨r, hr⟩ := ieee_real 8 23 (0x3D3504F3#32 : BitVec 32) (by decide)
  show Ideal.ieee 8 23 (0x3D3504F3#32 : BitVec 32) = ((Ideal.ieee 8 23 (0x3D3504F3#32 : BitVec 32)).toReal : EReal)
  rw [hr, EReal.toReal_coe]

/-- The value the running maximum starts from: the pattern of `float32(-1e30)`, a real (not an infinity). -/
def m0 : EReal := Ideal.ofBits .f32 0xF149F2CA#32
theorem m0_real : ∃ r : ℝ, m0 = (r : EReal) := ieee_real 8 23 (0xF149F2CA#32 : BitVec 32) (by decide)

/-- The pattern `0xFF800000` denotes `-∞`. -/
theorem ofBits_neg_inf : Ideal.ofBits .f32 0xFF800000#32 = (⊥ : EReal) := by
  show Ideal.ieee 8 23 (0xFF800000#32 : BitVec 32) = ⊥
  unfold Ideal.ieee
  dsimp only
  rw [if_pos (by decide), if_pos (by decide), if_pos (by decide)]

/-- The arrays read as reals. -/
def Xr (x : SX.Idx → EReal) (b : Fin 8) (n : Fin 32768) (c : Fin 512) : ℝ := (x (ix3 b n c)).toReal
def Qr (q : SQ.Idx → EReal) (r : Fin 256) (c : Fin 512) : ℝ := (q (ix2 r c)).toReal

theorem Xr_coe {x : SX.Idx → EReal} (h : AllReal x) (b : Fin 8) (n : Fin 32768) (c : Fin 512) :
    x (ix3 b n c) = (Xr x b n c : EReal) := h.coe _
theorem Qr_coe {q : SQ.Idx → EReal} (h : AllReal q) (r : Fin 256) (c : Fin 512) :
    q (ix2 r c) = (Qr q r c : EReal) := h.coe _

/-- The logit of query row `r` against position `n` of batch `b`. -/
def logit (x : SX.Idx → EReal) (q : SQ.Idx → EReal) (b : Fin 8) (r : Fin 256) (n : Fin 32768) : ℝ :=
  ∑ c : Fin 512, Qr q r c * κr * Xr x b n c

/-- The pooled value: the mean of column `c` of batch `b` weighted by the exponentials of row `r`'s logits. -/
def pooled (x : SX.Idx → EReal) (q : SQ.Idx → EReal) (b : Fin 8) (r : Fin 256) (c : Fin 512) : ℝ :=
  (∑ n : Fin 32768, Real.exp (logit x q b r n) * Xr x b n c) / ∑ n : Fin 32768, Real.exp (logit x q b r n)

/-- The output array both programs end with. -/
def G (x : SX.Idx → EReal) (q : SQ.Idx → EReal) : SO.Idx → EReal :=
  fun i => ((pooled x q (i 0) (i 1) (i 2) : ℝ) : EReal)

end AttnPool

end
-- ==== Proof.Payload.lean ====
/-
  The kernel body's arithmetic, read at an index, at the extended reals.

  Per grid point the body holds the query block `q` (256×512), one chunk `xb` of the value array
  (1×8192×512), and the first columns `mcol`, `lcol` (256×1) and the whole `acc` (256×512) of what the
  point before left.  Its values, entry by entry:
    logits      s[r,k]   = ∑_c q[r,c]·xb[0,k,c]
    new base    m'[r]    = max(mcol[r], max_k s[r,k])
    rescale     α[r]     = exp(mcol[r] − m'[r])
    weights     p[r,k]   = exp(s[r,k] − m'[r])
    denominator l'[r]    = lcol[r]·α[r] + ∑_k p[r,k]
    numerator   acc'[r,c]= acc[r,c]·α[r] + ∑_k p[r,k]·xb[0,k,c]
    output      o[0,r,c] = acc'[r,c] / l'[r]
-/
import proofs.«142094_g30648886624911_feedfinal_492_9_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«142094_g30648886624911_feedfinal_492_9_alg».proof.Proof.LibColumns
import proofs.«142094_g30648886624911_feedfinal_492_9_alg».proof.Proof.Spec

noncomputable section

namespace AttnPool.Payload

open Cert.KernelIdeal Cert.KernelIdeal.Gen Idealize.ShloMosaic Idealize.ShloMosaic.ValueIdx

/-- Column 0 of a 256×128 scratch, as the body loads it (a 256×1 vector). -/
def col0 {F : FTy → Type} [FloatOps F] (X : Vec F S256x128 .f32) : Vec F S256x1 .f32 :=
  View.ld X (Rect.unit (s := S256x128) ![0, 0] S256x1.size Facts₀.inb_S256x128_S256x1_0_0)

theorem col0_apply {F : FTy → Type} [FloatOps F] (X : Vec F S256x128 .f32) (r : Fin 256) :
    col0 X (ix2 r 0) = X (ix2 r 0) := by
  show X _ = X _
  congr 1
  funext a
  apply Fin.ext
  match a with
  | ⟨0, _⟩ => show 0 + 1 * r.val = r.val; omega
  | ⟨1, _⟩ => rfl

/-- A row index with a column coordinate inserted on the reduced axis is the pair of the two. -/
theorem lift_ix1 (h : S256x8192.Reduces [1] S256) (r : Fin 256) (k : Fin 8192) :
    h.lift (ix1 r) k = ix2 r k := by
  funext a
  apply Fin.ext
  match a with
  | ⟨0, _⟩ => rfl
  | ⟨1, _⟩ => rfl

/-- The chunk as the two contractions read it: cast to a matrix and narrowed, entry `(k, c)` is the chunk's `(0, k, c)`. -/
theorem pay6_apply (xb : Vec Ideal S1x8192x512 .f32) (k : Fin 8192) (c : Fin 512) :
    k0_pay6 xb (ix2 k c) = xb (ix3 0 k c) := by
  unfold k0_pay6
  exact shapeCast_1ab_ab_apply _ _ k c

/-! ## The logits' contraction: the operand indices, axis by axis

Queries `[256, 512]` against the chunk `[8192, 512]`, contracting the second axis of both: at output `(r, k)` and
contraction coordinate `c` the operands are read at `(r, c)` and `(k, c)`. -/

theorem lhs7_0 (i : S256x8192.Idx) (p : dot_S256x512_S8192x512_S256x8192_1_1_0_0_n_n.contr.Idx) :
    (dot_S256x512_S8192x512_S256x8192_1_1_0_0_n_n.lhsIdx i p 0).val = (i 0).val := by
  unfold DotDims.lhsIdx
  rw [dif_neg (show ¬(0 : Fin S256x512.rank) ∈ dot_S256x512_S8192x512_S256x8192_1_1_0_0_n_n.lhsBatch by decide), dif_pos (show (0 : Fin S256x512.rank) ∈ dot_S256x512_S8192x512_S256x8192_1_1_0_0_n_n.lhsNonContracting by decide)]
  rfl
theorem lhs7_1 (i : S256x8192.Idx) (p : dot_S256x512_S8192x512_S256x8192_1_1_0_0_n_n.contr.Idx) :
    (dot_S256x512_S8192x512_S256x8192_1_1_0_0_n_n.lhsIdx i p 1).val = (p ⟨0, by decide⟩).val :=
  dot_S256x512_S8192x512_S256x8192_1_1_0_0_n_n.lhsIdx_val_of_single rfl i p
theorem rhs7_0 (i : S256x8192.Idx) (p : dot_S256x512_S8192x512_S256x8192_1_1_0_0_n_n.contr.Idx) :
    (dot_S256x512_S8192x512_S256x8192_1_1_0_0_n_n.rhsIdx i p 0).val = (i 1).val := by
  unfold DotDims.rhsIdx
  rw [dif_neg (show ¬(0 : Fin S8192x512.rank) ∈ dot_S256x512_S8192x512_S256x8192_1_1_0_0_n_n.rhsBatch by decide), dif_pos (show (0 : Fin S8192x512.rank) ∈ dot_S256x512_S8192x512_S256x8192_1_1_0_0_n_n.rhsNonContracting by decide)]
  rfl
theorem rhs7_1 (i : S256x8192.Idx) (p : dot_S256x512_S8192x512_S256x8192_1_1_0_0_n_n.contr.Idx) :
    (dot_S256x512_S8192x512_S256x8192_1_1_0_0_n_n.rhsIdx i p 1).val = (p ⟨0, by decide⟩).val :=
  dot_S256x512_S8192x512_S256x8192_1_1_0_0_n_n.rhsIdx_val_of_single rfl i p

/-- The logits of the chunk: row `r` of the queries against row `k` of the chunk. -/
theorem pay7_apply (q : Vec Ideal S256x512 .bf16) (xb : Vec Ideal S1x8192x512 .f32) (r : Fin 256) (k : Fin 8192) :
    k0_pay7 q xb (ix2 r k) = ∑ c : Fin 512, q (ix2 r c) * xb (ix3 0 k c) := by
  unfold k0_pay7
  refine (Ideal.matmul_constant_zero_apply dot_S256x512_S8192x512_S256x8192_1_1_0_0_n_n none _ _ (ix2 r k)).trans ?_
  rw [← Equiv.sum_comp (ValueIdx.contrEquiv1 dot_S256x512_S8192x512_S256x8192_1_1_0_0_n_n 512 rfl rfl).symm]
  refine Finset.sum_congr rfl fun c _ => ?_
  have hk := ValueIdx.contrEquiv1_symm_val dot_S256x512_S8192x512_S256x8192_1_1_0_0_n_n 512 rfl rfl c
  have el : dot_S256x512_S8192x512_S256x8192_1_1_0_0_n_n.lhsIdx (ix2 r k) ((ValueIdx.contrEquiv1 dot_S256x512_S8192x512_S256x8192_1_1_0_0_n_n 512 rfl rfl).symm c) = ix2 r c := funext fun a => Fin.ext (by
    match a with
    | ⟨0, _⟩ => exact lhs7_0 _ _
    | ⟨1, _⟩ => exact (lhs7_1 _ _).trans hk)
  have er : dot_S256x512_S8192x512_S256x8192_1_1_0_0_n_n.rhsIdx (ix2 r k) ((ValueIdx.contrEquiv1 dot_S256x512_S8192x512_S256x8192_1_1_0_0_n_n 512 rfl rfl).symm c) = ix2 k c := funext fun a => Fin.ext (by
    match a with
    | ⟨0, _⟩ => exact rhs7_0 _ _
    | ⟨1, _⟩ => exact (rhs7_1 _ _).trans hk)
  rw [el, er]
  exact congrArg₂ (fun (a b : EReal) => a * b) (congrFun (shapeCast_self q _) (ix2 r c)) (pay6_apply xb k c)

/-- The new base: the old one against the chunk's largest logit (a fold of `max` from `-∞`). -/
theorem pay8_apply (q : Vec Ideal S256x512 .bf16) (xb : Vec Ideal S1x8192x512 .f32) (mcol : Vec Ideal S256x1 .f32) (r : Fin 256) :
    k0_pay8 q xb mcol (ix2 r 0)
      = max (mcol (ix2 r 0)) ((Finset.univ : Finset (Fin 8192)).fold max (⊥ : EReal) (fun k => k0_pay7 q xb (ix2 r k))) := by
  unfold k0_pay8
  refine congrArg (fun t => max (mcol (ix2 r 0)) t) ?_
  refine (Cert.Columns.shapeCast_a_a1_apply _ _ r 0).trans ?_
  refine (Ideal.multiReduction_maximumf_single (k0_pay7 q xb) _ _ _ _ (ix1 r)).trans ?_
  have hf : (k0_pay7 q xb ∘ Shape.Reduces.lift reduces_S256x8192_S256 (ix1 r))
      = fun k : Fin 8192 => k0_pay7 q xb (ix2 r k) :=
    funext fun k => congrArg (k0_pay7 q xb) (lift_ix1 _ r k)
  exact congrArg₂ (fun (b : EReal) (f : Fin 8192 → EReal) => (Finset.univ : Finset (Fin 8192)).fold max b f)
    AttnPool.ofBits_neg_inf hf

theorem pay12_apply (q : Vec Ideal S256x512 .bf16) (xb : Vec Ideal S1x8192x512 .f32) (mcol : Vec Ideal S256x1 .f32) (r : Fin 256) :
    k0_pay12 q xb mcol (ix2 r 0) = k0_pay8 q xb mcol (ix2 r 0) := by
  exact congrFun (shapeCast_self (k0_pay8 q xb mcol) _) (ix2 r 0)

/-- The rescaling factor of what the earlier chunks left. -/
theorem pay9_apply (q : Vec Ideal S256x512 .bf16) (xb : Vec Ideal S1x8192x512 .f32) (mcol : Vec Ideal S256x1 .f32) (r : Fin 256) :
    k0_pay9 q xb mcol (ix2 r 0) = Ideal.exp (mcol (ix2 r 0) - k0_pay8 q xb mcol (ix2 r 0)) := by
  rfl

/-- The chunk's weights. -/
theorem pay10_apply (q : Vec Ideal S256x512 .bf16) (xb : Vec Ideal S1x8192x512 .f32) (mcol : Vec Ideal S256x1 .f32) (r : Fin 256) (k : Fin 8192) :
    k0_pay10 q xb mcol (ix2 r k) = Ideal.exp (k0_pay7 q xb (ix2 r k) - k0_pay8 q xb mcol (ix2 r 0)) := by
  show Ideal.exp (k0_pay7 q xb (ix2 r k) - broadcastTo S256x8192 (k0_pay8 q xb mcol) _ (ix2 r k)) = _
  exact congrArg (fun t => Ideal.exp (k0_pay7 q xb (ix2 r k) - t))
    (Cert.Columns.broadcastTo_a1_ab_apply (k0_pay8 q xb mcol) _ r k)

/-- The new denominator. -/
theorem pay11_apply (q : Vec Ideal S256x512 .bf16) (xb : Vec Ideal S1x8192x512 .f32) (mcol lcol : Vec Ideal S256x1 .f32) (r : Fin 256) :
    k0_pay11 q xb mcol lcol (ix2 r 0)
      = lcol (ix2 r 0) * k0_pay9 q xb mcol (ix2 r 0) + ∑ k : Fin 8192, k0_pay10 q xb mcol (ix2 r k) := by
  unfold k0_pay11
  refine (congrFun (shapeCast_self _ _) (ix2 r 0)).trans ?_
  refine congrArg (fun t => lcol (ix2 r 0) * k0_pay9 q xb mcol (ix2 r 0) + t) ?_
  refine (Cert.Columns.shapeCast_a_a1_apply _ _ r 0).trans ?_
  refine (Ideal.multiReduction_add_single (k0_pay10 q xb mcol) _ _ _ _ (ix1 r)).trans ?_
  exact Finset.sum_congr rfl fun k _ => congrArg (k0_pay10 q xb mcol) (lift_ix1 _ r k)

/-! ## The numerator's contraction: the operand indices, axis by axis

Weights `[256, 8192]` against the chunk `[8192, 512]`, contracting the weights' second axis with the chunk's first: at
output `(r, c)` and contraction coordinate `k` the operands are read at `(r, k)` and `(k, c)`. -/

theorem lhs13_0 (i : S256x512.Idx) (p : dot_S256x8192_S8192x512_S256x512_1_0_0_1_n_n.contr.Idx) :
    (dot_S256x8192_S8192x512_S256x512_1_0_0_1_n_n.lhsIdx i p 0).val = (i 0).val := by
  unfold DotDims.lhsIdx
  rw [dif_neg (show ¬(0 : Fin S256x8192.rank) ∈ dot_S256x8192_S8192x512_S256x512_1_0_0_1_n_n.lhsBatch by decide), dif_pos (show (0 : Fin S256x8192.rank) ∈ dot_S256x8192_S8192x512_S256x512_1_0_0_1_n_n.lhsNonContracting by decide)]
  rfl
theorem lhs13_1 (i : S256x512.Idx) (p : dot_S256x8192_S8192x512_S256x512_1_0_0_1_n_n.contr.Idx) :
    (dot_S256x8192_S8192x512_S256x512_1_0_0_1_n_n.lhsIdx i p 1).val = (p ⟨0, by decide⟩).val :=
  dot_S256x8192_S8192x512_S256x512_1_0_0_1_n_n.lhsIdx_val_of_single rfl i p
theorem rhs13_0 (i : S256x512.Idx) (p : dot_S256x8192_S8192x512_S256x512_1_0_0_1_n_n.contr.Idx) :
    (dot_S256x8192_S8192x512_S256x512_1_0_0_1_n_n.rhsIdx i p 0).val = (p ⟨0, by decide⟩).val :=
  dot_S256x8192_S8192x512_S256x512_1_0_0_1_n_n.rhsIdx_val_of_single rfl i p
theorem rhs13_1 (i : S256x512.Idx) (p : dot_S256x8192_S8192x512_S256x512_1_0_0_1_n_n.contr.Idx) :
    (dot_S256x8192_S8192x512_S256x512_1_0_0_1_n_n.rhsIdx i p 1).val = (i 1).val := by
  unfold DotDims.rhsIdx
  rw [dif_neg (show ¬(1 : Fin S8192x512.rank) ∈ dot_S256x8192_S8192x512_S256x512_1_0_0_1_n_n.rhsBatch by decide), dif_pos (show (1 : Fin S8192x512.rank) ∈ dot_S256x8192_S8192x512_S256x512_1_0_0_1_n_n.rhsNonContracting by decide)]
  rfl

/-- The chunk's contribution to the numerator. -/
theorem pay13_apply (q : Vec Ideal S256x512 .bf16) (xb : Vec Ideal S1x8192x512 .f32) (mcol : Vec Ideal S256x1 .f32) (r : Fin 256) (c : Fin 512) :
    k0_pay13 q xb mcol (ix2 r c) = ∑ k : Fin 8192, k0_pay10 q xb mcol (ix2 r k) * xb (ix3 0 k c) := by
  unfold k0_pay13
  refine (Ideal.matmul_constant_zero_apply dot_S256x8192_S8192x512_S256x512_1_0_0_1_n_n none _ _ (ix2 r c)).trans ?_
  rw [← Equiv.sum_comp (ValueIdx.contrEquiv1 dot_S256x8192_S8192x512_S256x512_1_0_0_1_n_n 8192 rfl rfl).symm]
  refine Finset.sum_congr rfl fun k _ => ?_
  have hk := ValueIdx.contrEquiv1_symm_val dot_S256x8192_S8192x512_S256x512_1_0_0_1_n_n 8192 rfl rfl k
  have el : dot_S256x8192_S8192x512_S256x512_1_0_0_1_n_n.lhsIdx (ix2 r c) ((ValueIdx.contrEquiv1 dot_S256x8192_S8192x512_S256x512_1_0_0_1_n_n 8192 rfl rfl).symm k) = ix2 r k := funext fun a => Fin.ext (by
    match a with
    | ⟨0, _⟩ => exact lhs13_0 _ _
    | ⟨1, _⟩ => exact (lhs13_1 _ _).trans hk)
  have er : dot_S256x8192_S8192x512_S256x512_1_0_0_1_n_n.rhsIdx (ix2 r c) ((ValueIdx.contrEquiv1 dot_S256x8192_S8192x512_S256x512_1_0_0_1_n_n 8192 rfl rfl).symm k) = ix2 k c := funext fun a => Fin.ext (by
    match a with
    | ⟨0, _⟩ => exact (rhs13_0 _ _).trans hk
    | ⟨1, _⟩ => exact rhs13_1 _ _)
  rw [el, er]
  exact congrArg (fun (b : EReal) => k0_pay10 q xb mcol (ix2 r k) * b) (pay6_apply xb k c)

/-- The earlier numerator rescaled. -/
theorem pay14_apply (q : Vec Ideal S256x512 .bf16) (xb : Vec Ideal S1x8192x512 .f32) (mcol : Vec Ideal S256x1 .f32) (acc : Vec Ideal S256x512 .f32) (r : Fin 256) (c : Fin 512) :
    k0_pay14 q xb mcol acc (ix2 r c) = acc (ix2 r c) * k0_pay9 q xb mcol (ix2 r 0) := by
  show acc (ix2 r c) * broadcastTo S256x512 (k0_pay9 q xb mcol) _ (ix2 r c) = _
  exact congrArg (fun t => acc (ix2 r c) * t)
    (Cert.Columns.broadcastTo_a1_ab_apply (k0_pay9 q xb mcol) _ r c)

/-- The new numerator. -/
theorem pay1_apply (v30 v33 : FVec Ideal S256x512 .f32) (r : Fin 256) (c : Fin 512) :
    k0_pay1 v30 v33 (ix2 r c) = v33 (ix2 r c) + v30 (ix2 r c) := by
  exact congrFun (shapeCast_self (addf v33 v30) _) (ix2 r c)

/-- The output block: numerator over denominator. -/
theorem pay2_apply (num : Vec Ideal S256x512 .f32) (den : Vec Ideal S256x1 .f32) (r : Fin 256) (c : Fin 512) :
    k0_pay2 num den (ix3 0 r c) = Ideal.div (num (ix2 r c)) (den (ix2 r 0)) := by
  unfold k0_pay2
  refine (shapeCast_ab_1ab_apply _ _ 0 r c).trans ?_
  exact congrArg (fun t => Ideal.div (num (ix2 r c)) t) (Cert.Columns.broadcastTo_a1_ab_apply den _ r c)

/-- The three resets at a batch's first chunk. -/
theorem pay3_apply (i : S256x128.Idx) : k0_pay3 (F := Ideal) i = Ideal.ofBits .f32 0xF149F2CA#32 := by
  exact congrFun (shapeCast_self (broadcast S256x128 (Scalar.ofBits (F := Ideal) .f32 0xF149F2CA#32)) _) i
theorem pay4_apply (i : S256x128.Idx) : k0_pay4 (F := Ideal) i = 0 := by
  refine (congrFun (shapeCast_self (broadcast S256x128 (Scalar.ofBits (F := Ideal) .f32 0x00000000#32)) _) i).trans ?_
  exact Ideal.ofBits_zero_f32
theorem pay5_apply (i : S256x512.Idx) : k0_pay5 (F := Ideal) i = 0 := by
  refine (congrFun (shapeCast_self (broadcast S256x512 (Scalar.ofBits (F := Ideal) .f32 0x00000000#32)) _) i).trans ?_
  exact Ideal.ofBits_zero_f32

end AttnPool.Payload

end
-- ==== Proof.Pieces.lean ====
/-
  What one run of the kernel body leaves in its three scratch buffers and in the output block,
  as the body's arithmetic (the payload terms) applied to what it loaded.

  Three control cases: A, a batch's first chunk (the scratch is reset first, so the body's loads read
  the reset values); B, a middle chunk (the loads read what the chunk before left); C, a batch's last
  chunk (as B, and the output block is the new numerator over the new denominator).
  The base and denominator scratch are 256×128 buffers of which only column 0 is used.
-/
import proofs.«142094_g30648886624911_feedfinal_492_9_alg».proof.Proof.Gen.KernelIdeal.Frame
import proofs.«142094_g30648886624911_feedfinal_492_9_alg».proof.Proof.Payload
import Idealize.ShloMosaic.Lib.Pipeline.Value
import Idealize.ShloMosaic.Lib.WritesUnit

set_option maxRecDepth 16384

noncomputable section

namespace AttnPool.Pieces

open Cert.KernelIdeal Cert.KernelIdeal.Gen Idealize.ShloMosaic Idealize.ShloMosaic.ValueIdx AttnPool.Payload
open Idealize.ShloMosaic.Tactic

variable {F : FTy → Type} [FloatOps F]

/-- The rank-2 origin, spelt as a vector literal, is the zero offset. -/
theorem hz2 : (![0,0] : Fin 2 → Nat) = fun _ => 0 := by
  funext a; match a with | ⟨0,_⟩ => rfl | ⟨1,_⟩ => rfl

/-- The rank-3 origin, spelt as a vector literal, is the zero offset. -/
theorem hz3 : (![0,0,0] : Fin 3 → Nat) = fun _ => 0 := by
  funext a; match a with | ⟨0,_⟩ => rfl | ⟨1,_⟩ => rfl | ⟨2,_⟩ => rfl

/-- A load of column 0 of a 256×128 buffer holding one whole-buffer store reads column 0 of the stored value. -/
theorem readCov_col0 (M : Memref sig .tc .vmem S256x128 .f32) (w : Vec F S256x128 .f32) :
    M.view.readCov [⟨Rect.unit ![0, 0] S256x128.size Facts₀.inb_S256x128_S256x128_0_0, w⟩]
      (Rect.unit (s := S256x128) ![0, 0] S256x1.size Facts₀.inb_S256x128_S256x1_0_0).toLoadRect = col0 w := by
  rw [View.readCov_eq_canon', View.canon_unit_zero hz2]
  rfl

/-- A whole-buffer load of a 256×512 buffer holding one whole-buffer store reads the stored value. -/
theorem readCov_whole512 (M : Memref sig .tc .vmem S256x512 .f32) (w : Vec F S256x512 .f32) :
    M.view.readCov [⟨Rect.unit ![0, 0] S256x512.size Facts₀.inb_S256x512_S256x512_0_0, w⟩]
      (Rect.unit ![0, 0] S256x512.size Facts₀.inb_S256x512_S256x512_0_0).toLoadRect = w :=
  View.readCov_unit_zero M.view hz2 _ w

/-- Row `r` of the 256×1 column rectangle at the origin of a 256×128 buffer sits at row `r`, column 0. -/
theorem emb_col0 (r : Fin 256) :
    (Rect.unit (s := S256x128) ![0, 0] ![256, 1] Facts₀.inb_S256x128_S256x1_0_0).emb (ix2 r 0)
      = (ix2 r 0 : S256x128.Idx) := by
  funext a
  apply Fin.ext
  match a with
  | ⟨0, _⟩ => show 0 + 1 * r.val = r.val; omega
  | ⟨1, _⟩ => rfl

/-- With a store of the 256×1 column at the origin last, row `r` of column 0 holds the stored column's row `r`. -/
theorem canon_col0 (w : Vec F S256x1 .f32) (L : List (View.Piece (Elt F) S256x128 .f32)) (r : Fin 256) :
    View.canon (⟨Rect.unit (s := S256x128) ![0, 0] ![256, 1] Facts₀.inb_S256x128_S256x1_0_0, w⟩ :: L) (ix2 r 0)
      = w (ix2 r 0) :=
  (congrArg _ (emb_col0 r).symm).trans
    (View.canon_cons_emb (Rect.unit (s := S256x128) ![0, 0] ![256, 1] Facts₀.inb_S256x128_S256x1_0_0) w L (ix2 r 0))

/-- Case A: the numerator scratch after the point. -/
theorem soutA0 (c : Dev nD) (i : grid0.Coords) (arg2 : Memref sig .tc .vmem S256x512 .bf16) (harg2 : arg2.IsWhole) (arg3 : Memref sig .tc .vmem S1x8192x512 .f32) (harg3 : arg3.IsWhole) (arg4 : Memref sig .tc .vmem S1x256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S256x128 .f32) (harg7 : arg7.IsWhole) (hc0 : cond0_0 i) (hc1 : ¬cond0_1 i) (x0 : Vec F S256x512 .bf16) (x1 : Vec F S1x8192x512 .f32) :
    sout0_A_0 c i arg2 harg2 arg3 harg3 arg4 harg4 arg5 harg5 arg6 harg6 arg7 harg7 hc0 hc1 x0 x1 = k0_pay1 (k0_pay13 x0 x1 (col0 k0_pay3)) (k0_pay14 x0 x1 (col0 k0_pay3) k0_pay5) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero hz2, readCov_col0 arg6 k0_pay3, readCov_whole512 arg5 k0_pay5]
  simp only [View.readAt_eq_ld, Memref.IsWhole.read_unread, View.ld_unit_zero (S := S256x512) hz2,
    View.ld_unit_zero (S := S1x8192x512) hz3]

/-- Case A: column 0 of the base scratch after the point. -/
theorem soutA1 (c : Dev nD) (i : grid0.Coords) (arg2 : Memref sig .tc .vmem S256x512 .bf16) (harg2 : arg2.IsWhole) (arg3 : Memref sig .tc .vmem S1x8192x512 .f32) (harg3 : arg3.IsWhole) (arg4 : Memref sig .tc .vmem S1x256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S256x128 .f32) (harg7 : arg7.IsWhole) (hc0 : cond0_0 i) (hc1 : ¬cond0_1 i) (x0 : Vec F S256x512 .bf16) (x1 : Vec F S1x8192x512 .f32) (r : Fin 256) :
    sout0_A_1 c i arg2 harg2 arg3 harg3 arg4 harg4 arg5 harg5 arg6 harg6 arg7 harg7 hc0 hc1 x0 x1 (ix2 r 0) = k0_pay12 x0 x1 (col0 k0_pay3) (ix2 r 0) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  refine (canon_col0 _ _ r).trans ?_
  rw [readCov_col0 arg6 k0_pay3]
  simp only [View.readAt_eq_ld, Memref.IsWhole.read_unread, View.ld_unit_zero (S := S256x512) hz2,
    View.ld_unit_zero (S := S1x8192x512) hz3]

/-- Case A: column 0 of the denominator scratch after the point. -/
theorem soutA2 (c : Dev nD) (i : grid0.Coords) (arg2 : Memref sig .tc .vmem S256x512 .bf16) (harg2 : arg2.IsWhole) (arg3 : Memref sig .tc .vmem S1x8192x512 .f32) (harg3 : arg3.IsWhole) (arg4 : Memref sig .tc .vmem S1x256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S256x128 .f32) (harg7 : arg7.IsWhole) (hc0 : cond0_0 i) (hc1 : ¬cond0_1 i) (x0 : Vec F S256x512 .bf16) (x1 : Vec F S1x8192x512 .f32) (r : Fin 256) :
    sout0_A_2 c i arg2 harg2 arg3 harg3 arg4 harg4 arg5 harg5 arg6 harg6 arg7 harg7 hc0 hc1 x0 x1 (ix2 r 0) = k0_pay11 x0 x1 (col0 k0_pay3) (col0 k0_pay4) (ix2 r 0) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  refine (canon_col0 _ _ r).trans ?_
  rw [readCov_col0 arg6 k0_pay3, readCov_col0 arg7 k0_pay4]
  simp only [View.readAt_eq_ld, Memref.IsWhole.read_unread, View.ld_unit_zero (S := S256x512) hz2,
    View.ld_unit_zero (S := S1x8192x512) hz3]

/-- Case B: the numerator scratch after the point. -/
theorem soutB0 (c : Dev nD) (i : grid0.Coords) (arg2 : Memref sig .tc .vmem S256x512 .bf16) (harg2 : arg2.IsWhole) (arg3 : Memref sig .tc .vmem S1x8192x512 .f32) (harg3 : arg3.IsWhole) (arg4 : Memref sig .tc .vmem S1x256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S256x128 .f32) (harg7 : arg7.IsWhole) (hc0 : ¬cond0_0 i) (hc1 : ¬cond0_1 i) (x0 : Vec F S256x512 .bf16) (x1 : Vec F S1x8192x512 .f32) (xs0 : Vec F S256x512 .f32) (xs1 : Vec F S256x128 .f32) (xs2 : Vec F S256x128 .f32) :
    sout0_B_0 c i arg2 harg2 arg3 harg3 arg4 harg4 arg5 harg5 arg6 harg6 arg7 harg7 hc0 hc1 x0 x1 xs0 xs1 xs2 = k0_pay1 (k0_pay13 x0 x1 (col0 xs1)) (k0_pay14 x0 x1 (col0 xs1) xs0) := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, Memref.IsWhole.read_unread, View.ld_unit_zero (S := S256x512) hz2,
    View.ld_unit_zero (S := S1x8192x512) hz3]
  rfl

/-- Case B: column 0 of the base scratch after the point. -/
theorem soutB1 (c : Dev nD) (i : grid0.Coords) (arg2 : Memref sig .tc .vmem S256x512 .bf16) (harg2 : arg2.IsWhole) (arg3 : Memref sig .tc .vmem S1x8192x512 .f32) (harg3 : arg3.IsWhole) (arg4 : Memref sig .tc .vmem S1x256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S256x128 .f32) (harg7 : arg7.IsWhole) (hc0 : ¬cond0_0 i) (hc1 : ¬cond0_1 i) (x0 : Vec F S256x512 .bf16) (x1 : Vec F S1x8192x512 .f32) (xs0 : Vec F S256x512 .f32) (xs1 : Vec F S256x128 .f32) (xs2 : Vec F S256x128 .f32) (r : Fin 256) :
    sout0_B_1 c i arg2 harg2 arg3 harg3 arg4 harg4 arg5 harg5 arg6 harg6 arg7 harg7 hc0 hc1 x0 x1 xs0 xs1 xs2 (ix2 r 0) = k0_pay12 x0 x1 (col0 xs1) (ix2 r 0) := by
  unfold sout0_B_1 kernelRun0_B
  dsimp only
  sl_unfold_words
  refine (View.read_writes_cons_unit_of_mem arg6.view (harg6.unread xs1) Facts₀.inb_S256x128_S256x1_0_0 _ []
    (ix2 r 0) (ix2 r 0) rfl (fun a => ?_)).trans ?_
  · match a with
    | ⟨0, _⟩ => exact (Nat.zero_add _).symm
    | ⟨1, _⟩ => rfl
  · simp only [View.readAt_eq_ld, Memref.IsWhole.read_unread, View.ld_unit_zero (S := S256x512) hz2,
      View.ld_unit_zero (S := S1x8192x512) hz3]
    rfl

/-- Case B: column 0 of the denominator scratch after the point. -/
theorem soutB2 (c : Dev nD) (i : grid0.Coords) (arg2 : Memref sig .tc .vmem S256x512 .bf16) (harg2 : arg2.IsWhole) (arg3 : Memref sig .tc .vmem S1x8192x512 .f32) (harg3 : arg3.IsWhole) (arg4 : Memref sig .tc .vmem S1x256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S256x128 .f32) (harg7 : arg7.IsWhole) (hc0 : ¬cond0_0 i) (hc1 : ¬cond0_1 i) (x0 : Vec F S256x512 .bf16) (x1 : Vec F S1x8192x512 .f32) (xs0 : Vec F S256x512 .f32) (xs1 : Vec F S256x128 .f32) (xs2 : Vec F S256x128 .f32) (r : Fin 256) :
    sout0_B_2 c i arg2 harg2 arg3 harg3 arg4 harg4 arg5 harg5 arg6 harg6 arg7 harg7 hc0 hc1 x0 x1 xs0 xs1 xs2 (ix2 r 0) = k0_pay11 x0 x1 (col0 xs1) (col0 xs2) (ix2 r 0) := by
  unfold sout0_B_2 kernelRun0_B
  dsimp only
  sl_unfold_words
  refine (View.read_writes_cons_unit_of_mem arg7.view (harg7.unread xs2) Facts₀.inb_S256x128_S256x1_0_0 _ []
    (ix2 r 0) (ix2 r 0) rfl (fun a => ?_)).trans ?_
  · match a with
    | ⟨0, _⟩ => exact (Nat.zero_add _).symm
    | ⟨1, _⟩ => rfl
  · simp only [View.readAt_eq_ld, Memref.IsWhole.read_unread, View.ld_unit_zero (S := S256x512) hz2,
      View.ld_unit_zero (S := S1x8192x512) hz3]
    rfl

/-- Case C: the numerator scratch after the point. -/
theorem soutC0 (c : Dev nD) (i : grid0.Coords) (arg2 : Memref sig .tc .vmem S256x512 .bf16) (harg2 : arg2.IsWhole) (arg3 : Memref sig .tc .vmem S1x8192x512 .f32) (harg3 : arg3.IsWhole) (arg4 : Memref sig .tc .vmem S1x256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S256x128 .f32) (harg7 : arg7.IsWhole) (hc0 : ¬cond0_0 i) (hc1 : cond0_1 i) (x0 : Vec F S256x512 .bf16) (x1 : Vec F S1x8192x512 .f32) (xs0 : Vec F S256x512 .f32) (xs1 : Vec F S256x128 .f32) (xs2 : Vec F S256x128 .f32) :
    sout0_C_0 c i arg2 harg2 arg3 harg3 arg4 harg4 arg5 harg5 arg6 harg6 arg7 harg7 hc0 hc1 x0 x1 xs0 xs1 xs2 = k0_pay1 (k0_pay13 x0 x1 (col0 xs1)) (k0_pay14 x0 x1 (col0 xs1) xs0) := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, Memref.IsWhole.read_unread, View.ld_unit_zero (S := S256x512) hz2,
    View.ld_unit_zero (S := S1x8192x512) hz3]
  rfl

/-- Case C: column 0 of the base scratch after the point. -/
theorem soutC1 (c : Dev nD) (i : grid0.Coords) (arg2 : Memref sig .tc .vmem S256x512 .bf16) (harg2 : arg2.IsWhole) (arg3 : Memref sig .tc .vmem S1x8192x512 .f32) (harg3 : arg3.IsWhole) (arg4 : Memref sig .tc .vmem S1x256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S256x128 .f32) (harg7 : arg7.IsWhole) (hc0 : ¬cond0_0 i) (hc1 : cond0_1 i) (x0 : Vec F S256x512 .bf16) (x1 : Vec F S1x8192x512 .f32) (xs0 : Vec F S256x512 .f32) (xs1 : Vec F S256x128 .f32) (xs2 : Vec F S256x128 .f32) (r : Fin 256) :
    sout0_C_1 c i arg2 harg2 arg3 harg3 arg4 harg4 arg5 harg5 arg6 harg6 arg7 harg7 hc0 hc1 x0 x1 xs0 xs1 xs2 (ix2 r 0) = k0_pay12 x0 x1 (col0 xs1) (ix2 r 0) := by
  unfold sout0_C_1 kernelRun0_C
  dsimp only
  sl_unfold_words
  refine (View.read_writes_cons_unit_of_mem arg6.view (harg6.unread xs1) Facts₀.inb_S256x128_S256x1_0_0 _ []
    (ix2 r 0) (ix2 r 0) rfl (fun a => ?_)).trans ?_
  · match a with
    | ⟨0, _⟩ => exact (Nat.zero_add _).symm
    | ⟨1, _⟩ => rfl
  · simp only [View.readAt_eq_ld, Memref.IsWhole.read_unread, View.ld_unit_zero (S := S256x512) hz2,
      View.ld_unit_zero (S := S1x8192x512) hz3]
    rfl

/-- Case C: column 0 of the denominator scratch after the point. -/
theorem soutC2 (c : Dev nD) (i : grid0.Coords) (arg2 : Memref sig .tc .vmem S256x512 .bf16) (harg2 : arg2.IsWhole) (arg3 : Memref sig .tc .vmem S1x8192x512 .f32) (harg3 : arg3.IsWhole) (arg4 : Memref sig .tc .vmem S1x256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S256x128 .f32) (harg7 : arg7.IsWhole) (hc0 : ¬cond0_0 i) (hc1 : cond0_1 i) (x0 : Vec F S256x512 .bf16) (x1 : Vec F S1x8192x512 .f32) (xs0 : Vec F S256x512 .f32) (xs1 : Vec F S256x128 .f32) (xs2 : Vec F S256x128 .f32) (r : Fin 256) :
    sout0_C_2 c i arg2 harg2 arg3 harg3 arg4 harg4 arg5 harg5 arg6 harg6 arg7 harg7 hc0 hc1 x0 x1 xs0 xs1 xs2 (ix2 r 0) = k0_pay11 x0 x1 (col0 xs1) (col0 xs2) (ix2 r 0) := by
  unfold sout0_C_2 kernelRun0_C
  dsimp only
  sl_unfold_words
  refine (View.read_writes_cons_unit_of_mem arg7.view (harg7.unread xs2) Facts₀.inb_S256x128_S256x1_0_0 _ []
    (ix2 r 0) (ix2 r 0) rfl (fun a => ?_)).trans ?_
  · match a with
    | ⟨0, _⟩ => exact (Nat.zero_add _).symm
    | ⟨1, _⟩ => rfl
  · simp only [View.readAt_eq_ld, Memref.IsWhole.read_unread, View.ld_unit_zero (S := S256x512) hz2,
      View.ld_unit_zero (S := S1x8192x512) hz3]
    rfl

/-- Case C: the output block the point writes back. -/
theorem outC2 (c : Dev nD) (i : grid0.Coords) (arg2 : Memref sig .tc .vmem S256x512 .bf16) (harg2 : arg2.IsWhole) (arg3 : Memref sig .tc .vmem S1x8192x512 .f32) (harg3 : arg3.IsWhole) (arg4 : Memref sig .tc .vmem S1x256x512 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S256x128 .f32) (harg7 : arg7.IsWhole) (hc0 : ¬cond0_0 i) (hc1 : cond0_1 i) (x0 : Vec F S256x512 .bf16) (x1 : Vec F S1x8192x512 .f32) (xs0 : Vec F S256x512 .f32) (xs1 : Vec F S256x128 .f32) (xs2 : Vec F S256x128 .f32) :
    out0_C_2 c i arg2 harg2 arg3 harg3 arg4 harg4 arg5 harg5 arg6 harg6 arg7 harg7 hc0 hc1 x0 x1 xs0 xs1 xs2
      = k0_pay2 (k0_pay1 (k0_pay13 x0 x1 (col0 xs1)) (k0_pay14 x0 x1 (col0 xs1) xs0)) (k0_pay11 x0 x1 (col0 xs1) (col0 xs2)) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz3]
  refine congr (congrArg k0_pay2 ?_) ?_
  · refine (View.readCov_unit_zero arg5.view hz2 Facts₀.inb_S256x512_S256x512_0_0 _).trans ?_
    simp only [View.readAt_eq_ld, Memref.IsWhole.read_unread, View.ld_unit_zero (S := S256x512) hz2,
      View.ld_unit_zero (S := S1x8192x512) hz3]
    rfl
  · refine (View.readCov_cons_toLoadRect arg7.view
      (Rect.unit ![0, 0] S256x1.size Facts₀.inb_S256x128_S256x1_0_0) _ []).trans ?_
    simp only [View.readAt_eq_ld, Memref.IsWhole.read_unread, View.ld_unit_zero (S := S256x512) hz2,
      View.ld_unit_zero (S := S1x8192x512) hz3]
    rfl

end AttnPool.Pieces

end
-- ==== Proof.Step.lean ====
/-
  One run of the kernel body on real data.

  If the query block, the chunk, and what the point before left (column 0 of the base and of the
  denominator, and the numerator) are all real numbers — base `mr`, denominator `lr`, numerator `ar c` —
  then the new base is SOME real `m'` (a maximum of finitely many reals against a real), and with
  `s k = ∑_c q[r,c]·x[k,c]` the chunk's logits,
     new denominator = lr·exp(mr − m') + ∑_k exp(s k − m'),
     new numerator   = ar c·exp(mr − m') + ∑_k exp(s k − m')·x[k,c],
  all as real numbers.  Which real `m'` is does not matter to anything downstream.
-/
import proofs.«142094_g30648886624911_feedfinal_492_9_alg».proof.Proof.Payload
import proofs.«142094_g30648886624911_feedfinal_492_9_alg».proof.Proof.Spec
import Mathlib.Data.Finset.Fold

noncomputable section

namespace AttnPool.Step

open Cert.KernelIdeal Cert.KernelIdeal.Gen Idealize.ShloMosaic Idealize.ShloMosaic.ValueIdx AttnPool AttnPool.Payload

/-- A finite sum of real numbers, taken in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A real against the maximum (from `-∞`) of finitely many reals is a real. -/
theorem max_fold_real {ι : Type*} (s : Finset ι) (f : ι → ℝ) (a : ℝ) :
    ∃ r : ℝ, max (a : EReal) (s.fold max (⊥ : EReal) (fun i => ((f i : ℝ) : EReal))) = (r : EReal) := by
  have hlt : s.fold max (⊥ : EReal) (fun i => ((f i : ℝ) : EReal)) < ⊤ :=
by
    rw [Finset.fold_max_lt]
    exact ⟨bot_lt_top, fun i _ => EReal.coe_lt_top _⟩
  have h1 : max (a : EReal) (s.fold max (⊥ : EReal) (fun i => ((f i : ℝ) : EReal))) ≠ ⊤ :=
    (max_lt (EReal.coe_lt_top a) hlt).ne
  have h2 : max (a : EReal) (s.fold max (⊥ : EReal) (fun i => ((f i : ℝ) : EReal))) ≠ ⊥ :=
    ((EReal.bot_lt_coe a).trans_le (le_max_left _ _)).ne'
  exact ⟨_, (EReal.coe_toReal h1 h2).symm⟩

variable (q : Vec Ideal S256x512 .bf16) (xb : Vec Ideal S1x8192x512 .f32) (mcol lcol : Vec Ideal S256x1 .f32)
  (acc : Vec Ideal S256x512 .f32) (qr : Fin 256 → Fin 512 → ℝ) (xr : Fin 8192 → Fin 512 → ℝ)

/-- The chunk's logits are real. -/
theorem pay7_real (hq : ∀ r c, q (ix2 r c) = ((qr r c : ℝ) : EReal)) (hx : ∀ k c, xb (ix3 0 k c) = ((xr k c : ℝ) : EReal))
    (r : Fin 256) (k : Fin 8192) :
    k0_pay7 q xb (ix2 r k) = ((∑ c : Fin 512, qr r c * xr k c : ℝ) : EReal) := by
  rw [pay7_apply, ← sum_coe]
  exact Finset.sum_congr rfl fun c _ => by rw [hq, hx, EReal.coe_mul]

/-- One run of the body on real data: the new base is some real, and the new denominator and numerator are the old
    ones rescaled to it plus the chunk's sums. -/
theorem step (hq : ∀ r c, q (ix2 r c) = ((qr r c : ℝ) : EReal)) (hx : ∀ k c, xb (ix3 0 k c) = ((xr k c : ℝ) : EReal))
    (r : Fin 256) (mr lr : ℝ) (ar : Fin 512 → ℝ)
    (hm : mcol (ix2 r 0) = ((mr : ℝ) : EReal)) (hl : lcol (ix2 r 0) = ((lr : ℝ) : EReal))
    (ha : ∀ c, acc (ix2 r c) = ((ar c : ℝ) : EReal)) :
    ∃ m' : ℝ, k0_pay12 q xb mcol (ix2 r 0) = ((m' : ℝ) : EReal)
      ∧ k0_pay11 q xb mcol lcol (ix2 r 0)
          = ((lr * Real.exp (mr - m') + ∑ k : Fin 8192, Real.exp ((∑ c : Fin 512, qr r c * xr k c) - m') : ℝ) : EReal)
      ∧ ∀ c : Fin 512, k0_pay1 (k0_pay13 q xb mcol) (k0_pay14 q xb mcol acc) (ix2 r c)
          = ((ar c * Real.exp (mr - m')
              + ∑ k : Fin 8192, Real.exp ((∑ c' : Fin 512, qr r c' * xr k c') - m') * xr k c : ℝ) : EReal) := by
  obtain ⟨m', hm'⟩ : ∃ m' : ℝ, k0_pay8 q xb mcol (ix2 r 0) = ((m' : ℝ) : EReal) := by
    rw [pay8_apply, hm]
    simp only [pay7_real q xb qr xr hq hx]
    exact max_fold_real _ _ _
  have h9 : k0_pay9 q xb mcol (ix2 r 0) = ((Real.exp (mr - m') : ℝ) : EReal) := by
    rw [pay9_apply, hm, hm', ← EReal.coe_sub]; rfl
  have h10 : ∀ k : Fin 8192, k0_pay10 q xb mcol (ix2 r k)
      = ((Real.exp ((∑ c : Fin 512, qr r c * xr k c) - m') : ℝ) : EReal) := fun k => by
    rw [pay10_apply, pay7_real q xb qr xr hq hx, hm', ← EReal.coe_sub]; rfl
  refine ⟨m', (pay12_apply q xb mcol r).trans hm', ?_, fun c => ?_⟩
  · rw [pay11_apply, hl, h9]
    simp only [h10]
    rw [sum_coe, ← EReal.coe_mul, ← EReal.coe_add]
  · rw [pay1_apply, pay14_apply, pay13_apply, ha, h9]
    simp only [h10, hx, ← EReal.coe_mul]
    rw [sum_coe, ← EReal.coe_add]

end AttnPool.Step

end
-- ==== Proof.Invariant.lean ====
/-
  The running triple after `J` chunks, and what the last chunk's quotient is.

  For batch `b` and query row `r`, after the first `J` chunks of 8192 positions the three carried buffers hold,
  relative to SOME real base `mr` (column 0 of the base buffer),
     denominator (column 0)  ∑_{p<J} ∑_k exp(logit(p,k) − mr),
     numerator   (column c)  ∑_{p<J} ∑_k exp(logit(p,k) − mr)·x[b,(p,k),c].
  One more run of the body keeps this with `J + 1` and a new base (`inv_step`: the old sums are re-based by the
  factor exp(mr − m'), OnlineSoftmax.rebase_num / rebase_den); before the first chunk the reset values satisfy it
  with `J = 0` (empty sums).  After all four chunks numerator over denominator is the pooled value, whatever the
  base (`quotient_eq_pooled`: OnlineSoftmax.pooled_shift and sum_chunks).
-/
import proofs.«142094_g30648886624911_feedfinal_492_9_alg».proof.Proof.Step

noncomputable section

namespace AttnPool

open Cert.KernelIdeal Cert.KernelIdeal.Gen Idealize.ShloMosaic Idealize.ShloMosaic.ValueIdx AttnPool.Payload OnlineSoftmax

/-- The partial denominator and numerator over the first `J` chunks, relative to base `mr`. -/
def partDen (x : SX.Idx → EReal) (qa : SQ.Idx → EReal) (b : Fin 8) (r : Fin 256) (J : ℕ) (mr : ℝ) : ℝ :=
  ∑ p ∈ Finset.range J, ∑ k : Fin 8192, Real.exp (logit x qa b r (chunkIdx p k) - mr)
def partNum (x : SX.Idx → EReal) (qa : SQ.Idx → EReal) (b : Fin 8) (r : Fin 256) (c : Fin 512) (J : ℕ) (mr : ℝ) : ℝ :=
  ∑ p ∈ Finset.range J, ∑ k : Fin 8192, Real.exp (logit x qa b r (chunkIdx p k) - mr) * Xr x b (chunkIdx p k) c

/-- One more chunk: the old partial denominator re-based, plus the chunk's weights. -/
theorem partDen_succ (x : SX.Idx → EReal) (qa : SQ.Idx → EReal) (b : Fin 8) (r : Fin 256) (J : ℕ) (mr m' : ℝ) :
    partDen x qa b r J mr * Real.exp (mr - m') + ∑ k : Fin 8192, Real.exp (logit x qa b r (chunkIdx J k) - m')
      = partDen x qa b r (J + 1) m' := by
  unfold partDen
  rw [Finset.sum_range_succ, Finset.sum_mul]
  congr 1
  exact Finset.sum_congr rfl fun p _ => rebase_den Finset.univ _ mr m'

/-- The same for the numerator. -/
theorem partNum_succ (x : SX.Idx → EReal) (qa : SQ.Idx → EReal) (b : Fin 8) (r : Fin 256) (c : Fin 512) (J : ℕ) (mr m' : ℝ) :
    partNum x qa b r c J mr * Real.exp (mr - m')
        + ∑ k : Fin 8192, Real.exp (logit x qa b r (chunkIdx J k) - m') * Xr x b (chunkIdx J k) c
      = partNum x qa b r c (J + 1) m' := by
  unfold partNum
  rw [Finset.sum_range_succ, Finset.sum_mul]
  congr 1
  exact Finset.sum_congr rfl fun p _ => rebase_num Finset.univ _ _ mr m'

/-- What the three carried buffers hold after `J` chunks of batch `b`: row by row, relative to some real base. -/
def Inv (x : SX.Idx → EReal) (qa : SQ.Idx → EReal) (b : Fin 8) (J : ℕ)
    (mcol lcol : Vec Ideal S256x1 .f32) (acc : Vec Ideal S256x512 .f32) : Prop :=
  ∀ r : Fin 256, ∃ mr : ℝ, mcol (ix2 r 0) = ((mr : ℝ) : EReal)
    ∧ lcol (ix2 r 0) = ((partDen x qa b r J mr : ℝ) : EReal)
    ∧ ∀ c : Fin 512, acc (ix2 r c) = ((partNum x qa b r c J mr : ℝ) : EReal)

/-- ONE MORE CHUNK.  If the query block holds the scaled queries, the chunk holds positions `(J, ·)` of batch `b`, and
    the loaded columns and numerator satisfy the invariant at `J`, then what the body's arithmetic leaves satisfies it
    at `J + 1`. -/
theorem inv_step (x : SX.Idx → EReal) (qa : SQ.Idx → EReal) (b : Fin 8) (J : ℕ)
    (qb : Vec Ideal S256x512 .bf16) (xb : Vec Ideal S1x8192x512 .f32)
    (hqb : ∀ r c, qb (ix2 r c) = ((Qr qa r c * κr : ℝ) : EReal))
    (hxb : ∀ k c, xb (ix3 0 k c) = ((Xr x b (chunkIdx J k) c : ℝ) : EReal))
    (mcol lcol : Vec Ideal S256x1 .f32) (acc : Vec Ideal S256x512 .f32) (hprev : Inv x qa b J mcol lcol acc)
    (mcol' lcol' : Vec Ideal S256x1 .f32) (acc' : Vec Ideal S256x512 .f32)
    (h0 : acc' = k0_pay1 (k0_pay13 qb xb mcol) (k0_pay14 qb xb mcol acc))
    (h1 : ∀ r : Fin 256, mcol' (ix2 r 0) = k0_pay12 qb xb mcol (ix2 r 0))
    (h2 : ∀ r : Fin 256, lcol' (ix2 r 0) = k0_pay11 qb xb mcol lcol (ix2 r 0)) :
    Inv x qa b (J + 1) mcol' lcol' acc' := by
  intro r
  obtain ⟨mr, hm, hl, ha⟩ := hprev r
  obtain ⟨m', e1, e2, e3⟩ := Step.step qb xb mcol lcol acc (fun r c => Qr qa r c * κr)
    (fun k c => Xr x b (chunkIdx J k) c) hqb hxb r mr (partDen x qa b r J mr) (fun c => partNum x qa b r c J mr) hm hl ha
  refine ⟨m', (h1 r).trans e1, (h2 r).trans (e2.trans ?_), fun c => ?_⟩
  · exact congrArg _ (partDen_succ x qa b r J mr m')
  · rw [h0]
    exact (e3 c).trans (congrArg _ (partNum_succ x qa b r c J mr m'))

/-- BEFORE THE FIRST CHUNK: a real base, a zero denominator and a zero numerator are the invariant at `J = 0`. -/
theorem inv_zero (x : SX.Idx → EReal) (qa : SQ.Idx → EReal) (b : Fin 8)
    (mcol lcol : Vec Ideal S256x1 .f32) (acc : Vec Ideal S256x512 .f32)
    (hm : ∀ r : Fin 256, mcol (ix2 r 0) = m0) (hl : ∀ r : Fin 256, lcol (ix2 r 0) = 0)
    (ha : ∀ (r : Fin 256) (c : Fin 512), acc (ix2 r c) = 0) : Inv x qa b 0 mcol lcol acc := by
  intro r
  obtain ⟨mr, hmr⟩ := m0_real
  refine ⟨mr, (hm r).trans hmr, ?_, fun c => ?_⟩
  · rw [hl r]; unfold partDen; rw [Finset.sum_range_zero, EReal.coe_zero]
  · rw [ha r c]; unfold partNum; rw [Finset.sum_range_zero, EReal.coe_zero]

/-- AFTER THE LAST CHUNK: numerator over denominator is the pooled value, whatever the base. -/
theorem quotient_eq_pooled (x : SX.Idx → EReal) (qa : SQ.Idx → EReal) (b : Fin 8)
    (mcol lcol : Vec Ideal S256x1 .f32) (acc : Vec Ideal S256x512 .f32) (h : Inv x qa b 4 mcol lcol acc)
    (r : Fin 256) (c : Fin 512) :
    Ideal.div (acc (ix2 r c)) (lcol (ix2 r 0)) = ((pooled x qa b r c : ℝ) : EReal) := by
  obtain ⟨mr, -, hl, ha⟩ := h r
  have hden : partDen x qa b r 4 mr = ∑ n : Fin 32768, Real.exp (logit x qa b r n - mr) := by
    unfold partDen; exact sum_chunks fun n => Real.exp (logit x qa b r n - mr)
  have hnum : partNum x qa b r c 4 mr = ∑ n : Fin 32768, Real.exp (logit x qa b r n - mr) * Xr x b n c := by
    unfold partNum; exact sum_chunks fun n => Real.exp (logit x qa b r n - mr) * Xr x b n c
  have hpos : 0 < partDen x qa b r 4 mr := by
    rw [hden]; exact den_pos Finset.univ Finset.univ_nonempty _ mr
  have key : partNum x qa b r c 4 mr * (1 / partDen x qa b r 4 mr) = pooled x qa b r c := by
    rw [mul_one_div, hden, hnum]
    unfold pooled
    exact pooled_shift Finset.univ (fun n => logit x qa b r n) (fun n => Xr x b n c) mr
  rw [ha c, hl, Ideal.div_coe hpos.ne', ← EReal.coe_mul, key]

end AttnPool

end
-- ==== Proof.KernelBlocks.lean ====
/-
  What the kernel's two input blocks hold at grid point `t` (of 32: batch `t / 4`, chunk `t % 4`).

  The query window's one block is the whole scaled-query array, which the host operations before the
  launch wrote as `q[r,c]·κ`.  The value window's block at `t` is rows `8192·(t % 4) … + 8191` of batch
  `t / 4` of the value array: a block's coordinate is always block index × block size + the coordinate
  inside the block, and the block indices are `(t / 4, t % 4, 0)` (decided once over the grid).
-/
import proofs.«142094_g30648886624911_feedfinal_492_9_alg».proof.Proof.Gen.KernelIdeal.Frame
import proofs.«142094_g30648886624911_feedfinal_492_9_alg».proof.Proof.Spec
import Idealize.ShloMosaic.Lib.StableHlo.Run
import Idealize.ShloMosaic.Lib.Pipeline.Value

noncomputable section

namespace AttnPool.Kernel

open Cert.KernelIdeal Cert.KernelIdeal.Gen Idealize.ShloMosaic Idealize.ShloMosaic.TcCoe Idealize.SL.Sem
open Idealize.ShloMosaic.ValueIdx OnlineSoftmax AttnPool

variable (m : (ℓ : Loc nD τ sig) → Buf (Elt Ideal) ℓ)

/-- The two argument arrays on core `c`, at their literal types. -/
abbrev xarr (c : Dev nD) : SX.Idx → EReal := m ((c : Thread nD τ).loc main_arg0)
abbrev qarr (c : Dev nD) : SQ.Idx → EReal := m ((c : Thread nD τ).loc main_arg1)

/-- The two input blocks at point `t`, at their literal types. -/
abbrev qblk (c : Dev nD) (t : Fin cfg0.N) : Vec Ideal S256x512 .bf16 := iblk m c 0 t
abbrev xblk (c : Dev nD) (t : Fin cfg0.N) : Vec Ideal S1x8192x512 .f32 := iblk m c 1 t

theorem N32 : cfg0.N = 32 := N_0

/-- The batch of grid point `t`. -/
def batchOf (t : Fin cfg0.N) : Fin 8 := ⟨t.val / 4, by have h : t.val < 32 := lt_of_lt_of_eq t.isLt N32; omega⟩

/-- The block indices of the three windows, decided over the grid. -/
theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 3) = t.val / 4 ∧ win0_1.index t (1 : Fin 3) = t.val % 4
    ∧ win0_1.index t (2 : Fin 3) = 0 :=
  (by decide +kernel : ∀ t : Fin grid0.N, _)
theorem index2 : ∀ t : Fin cfg0.N, win0_2.index t (0 : Fin 3) = t.val / 4 ∧ win0_2.index t (1 : Fin 3) = 0
    ∧ win0_2.index t (2 : Fin 3) = 0 :=
  (by decide +kernel : ∀ t : Fin grid0.N, _)

/-- The scaled-query array as the region finds it: the host multiplied every query entry by `κ`. -/
theorem V_scaled (c : Dev nD) (i : S256x512.Idx) :
    (V m c main_v2 : S256x512.Idx → EReal) i = qarr m c i * κ := by
  have e : (V m c main_v2 : S256x512.Idx → EReal)
      = truncf .bf16 (mulf (m ((c : Thread nD τ).loc main_arg1))
          (broadcastInDim S256x512 ![] Facts₀.bcast_S_S256x512 (constant (F := Ideal) S_ .f32 0x3D3504F3#32))) Facts₀.bitsLt_bf16_f32 := by
    dsimp only [V, hostOps0]; after_results
  rw [e]; rfl

/-- The query block at any point is the scaled-query array. -/
theorem qblk_apply (c : Dev nD) (t : Fin cfg0.N) (r : Fin 256) (cc : Fin 512) :
    qblk m c t (ix2 r cc) = qarr m c (ix2 r cc) * κ := by
  obtain ⟨e0, e1⟩ := index0 t
  rw [← V_scaled m c (ix2 r cc)]
  show iblk m c 0 t (ix2 r cc) = _
  unfold iblk
  rw [View.read_apply]
  show V m c main_v2 _ = V m c main_v2 _
  congr 1
  funext a
  apply Fin.ext
  match a with
  | ⟨0, _⟩ => show win0_0.index t (0 : Fin 2) * 256 + 1 * r.val = r.val; omega
  | ⟨1, _⟩ => show win0_0.index t (1 : Fin 2) * 512 + 1 * cc.val = cc.val; omega

/-- The value block at point `t` is chunk `t % 4` of batch `t / 4`. -/
theorem xblk_apply (c : Dev nD) (t : Fin cfg0.N) (k : Fin 8192) (cc : Fin 512) :
    xblk m c t (ix3 0 k cc) = xarr m c (ix3 (batchOf t) (chunkIdx (t.val % 4) k) cc) := by
  obtain ⟨e0, e1, e2⟩ := index1 t
  have hk := k.isLt
  show iblk m c 1 t (ix3 0 k cc) = _
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_1.index t (0 : Fin 3) * 1 + 1 * 0 = t.val / 4; omega
  | ⟨1, _⟩ =>
    show win0_1.index t (1 : Fin 3) * 8192 + 1 * k.val = (chunkIdx (t.val % 4) k).val
    rw [chunkIdx_val _ (Nat.mod_lt _ (by norm_num))]; omega
  | ⟨2, _⟩ => show win0_1.index t (2 : Fin 3) * 512 + 1 * cc.val = cc.val; omega

end AttnPool.Kernel

end
-- ==== Proof.KernelValue.lean ====
/-
  The kernel's output array is the pooled-attention function `G` of its arguments.

  Along the 32 grid points (batch `t / 4`, chunk `t % 4`) the three carried buffers satisfy the running
  invariant (Invariant.lean) with `J = t % 4 + 1` chunks of batch `t / 4` done: a batch's first point resets
  them (the invariant at `J = 0`) and runs the body once; every other point runs the body on what the point
  before left.  A batch's last point writes back numerator over denominator, the pooled value, as the
  output's block `t / 4`; those eight blocks tile the output array.
-/
import proofs.«142094_g30648886624911_feedfinal_492_9_alg».proof.Proof.Gen.KernelIdeal.Value
import proofs.«142094_g30648886624911_feedfinal_492_9_alg».proof.Proof.Pieces
import proofs.«142094_g30648886624911_feedfinal_492_9_alg».proof.Proof.Invariant
import proofs.«142094_g30648886624911_feedfinal_492_9_alg».proof.Proof.KernelBlocks

set_option maxRecDepth 16384

noncomputable section

namespace AttnPool.Kernel

open Cert.KernelIdeal Cert.KernelIdeal.Gen Idealize.ShloMosaic Idealize.ShloMosaic.TcCoe Idealize.SL.Sem
open Idealize.ShloMosaic.Pipeline (Dat)
open Idealize.ShloMosaic.ValueIdx OnlineSoftmax AttnPool AttnPool.Payload AttnPool.Pieces

variable (m : (ℓ : Loc nD τ sig) → Buf (Elt Ideal) ℓ) (ρ : Dev nD → PrngReg)

/-- With real arguments the query block holds the real scaled queries, -/
theorem qblk_real (c : Dev nD) (hq : AllReal (qarr m c)) (t : Fin cfg0.N) (r : Fin 256) (cc : Fin 512) :
    qblk m c t (ix2 r cc) = ((Qr (qarr m c) r cc * κr : ℝ) : EReal) := by
  rw [qblk_apply, Qr_coe hq, κ_coe, ← EReal.coe_mul]

/-- and the value block holds chunk `j = t % 4` of batch `b = t / 4`. -/
theorem xblk_real (c : Dev nD) (hx : AllReal (xarr m c)) (t : Fin cfg0.N) (b : Fin 8) (j : ℕ) (hb : b.val = t.val / 4)
    (hj : j = t.val % 4) (k : Fin 8192) (cc : Fin 512) :
    xblk m c t (ix3 0 k cc) = ((Xr (xarr m c) b (chunkIdx j k) cc : ℝ) : EReal) := by
  subst hj
  obtain rfl : b = batchOf t := Fin.ext hb
  rw [xblk_apply, Xr_coe hx]

/-- The reset values are the invariant before a batch's first chunk. -/
theorem inv_reset (c : Dev nD) (b : Fin 8) :
    Inv (xarr m c) (qarr m c) b 0 (col0 (k0_pay3 (F := Ideal))) (col0 (k0_pay4 (F := Ideal))) (k0_pay5 (F := Ideal)) :=
  inv_zero _ _ b _ _ _ (fun r => (col0_apply _ r).trans (pay3_apply _)) (fun r => (col0_apply _ r).trans (pay4_apply _))
    (fun r cc => pay5_apply _)

/-- THE INVARIANT ALONG THE RUN: after point `n` the carried buffers hold the partial sums over the first `n % 4 + 1`
    chunks of batch `n / 4` — by induction on the point, each point one run of the body. -/
theorem inv_outsAt (c : Dev nD) (hx : AllReal (xarr m c)) (hq : AllReal (qarr m c)) :
    ∀ (n : ℕ) (hn : n < cfg0.N) (b : Fin 8) (J : ℕ), b.val = n / 4 → J = n % 4 + 1 →
      Inv (xarr m c) (qarr m c) b J (col0 (outsAt0 m c n hn).2.2.1) (col0 (outsAt0 m c n hn).2.2.2) (outsAt0 m c n hn).2.1 := by
  intro n
  induction n using Nat.strong_induction_on with
  | _ n ih' =>
    intro hn b J hb hJ
    have ih : ∀ (k : ℕ) (hk : k < cfg0.N), k < n → ∀ (b : Fin 8) (J : ℕ), b.val = k / 4 → J = k % 4 + 1 →
        Inv (xarr m c) (qarr m c) b J (col0 (outsAt0 m c k hk).2.2.1) (col0 (outsAt0 m c k hk).2.2.2) (outsAt0 m c k hk).2.1 :=
      fun k hk hkn => ih' k hkn hk
    have hN : n < 32 := lt_of_lt_of_eq hn N32
    generalize ht : (⟨n, hn⟩ : Fin cfg0.N) = t
    have htv : t.val = n := by rw [← ht]
    show Inv (xarr m c) (qarr m c) b J (col0 (outsAt0 m c (⟨n, hn⟩ : Fin cfg0.N).val (⟨n, hn⟩ : Fin cfg0.N).isLt).2.2.1)
      (col0 (outsAt0 m c (⟨n, hn⟩ : Fin cfg0.N).val (⟨n, hn⟩ : Fin cfg0.N).isLt).2.2.2) (outsAt0 m c (⟨n, hn⟩ : Fin cfg0.N).val (⟨n, hn⟩ : Fin cfg0.N).isLt).2.1
    rw [ht]
    rw [← htv] at hb hJ ih hN
    clear htv ht
    by_cases h0 : t.val % 4 = 0
    · have h1 : ¬t.val % 4 = 3 := by omega
      rw [outsAt0_A m c t h0 h1]
      dsimp only
      obtain rfl : J = 0 + 1 := by omega
      exact inv_step (xarr m c) (qarr m c) b 0 (qblk m c t) (xblk m c t)
        (fun r cc => qblk_real m c hq t r cc) (fun k cc => xblk_real m c hx t b 0 hb h0.symm k cc)
        (col0 (k0_pay3 (F := Ideal))) (col0 (k0_pay4 (F := Ideal))) (k0_pay5 (F := Ideal)) (inv_reset m c b)
        (col0 (sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t))) (col0 (sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t))) (sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t))
        (soutA0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t))
        (fun r => (col0_apply _ r).trans (soutA1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) r))
        (fun r => (col0_apply _ r).trans (soutA2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) r))
    · by_cases h1 : t.val % 4 = 3
      · rw [outsAt0_C m c t h0 h1]
        dsimp only
        have hprev := ih (t.val - 1) (Nat.lt_of_le_of_lt (Nat.sub_le _ _) t.isLt) (by omega) b (J - 1) (by omega) (by omega)
        obtain ⟨J', rfl⟩ : ∃ J', J = J' + 1 := ⟨J - 1, by omega⟩
        rw [Nat.add_sub_cancel] at hprev
        exact inv_step (xarr m c) (qarr m c) b J' (qblk m c t) (xblk m c t)
          (fun r cc => qblk_real m c hq t r cc) (fun k cc => xblk_real m c hx t b J' hb (by omega) k cc)
          (col0 (outsAt0 m c (t.val - 1) (Nat.lt_of_le_of_lt (Nat.sub_le _ _) t.isLt)).2.2.1) (col0 (outsAt0 m c (t.val - 1) (Nat.lt_of_le_of_lt (Nat.sub_le _ _) t.isLt)).2.2.2) (outsAt0 m c (t.val - 1) (Nat.lt_of_le_of_lt (Nat.sub_le _ _) t.isLt)).2.1 hprev
          (col0 (sout0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)) (col0 (sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)) (sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
          (soutC0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
          (fun r => (col0_apply _ r).trans (soutC1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 r))
          (fun r => (col0_apply _ r).trans (soutC2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 r))
      · rw [outsAt0_B m c t h0 h1]
        dsimp only
        have hprev := ih (t.val - 1) (Nat.lt_of_le_of_lt (Nat.sub_le _ _) t.isLt) (by omega) b (J - 1) (by omega) (by omega)
        obtain ⟨J', rfl⟩ : ∃ J', J = J' + 1 := ⟨J - 1, by omega⟩
        rw [Nat.add_sub_cancel] at hprev
        exact inv_step (xarr m c) (qarr m c) b J' (qblk m c t) (xblk m c t)
          (fun r cc => qblk_real m c hq t r cc) (fun k cc => xblk_real m c hx t b J' hb (by omega) k cc)
          (col0 (outsAt0 m c (t.val - 1) (Nat.lt_of_le_of_lt (Nat.sub_le _ _) t.isLt)).2.2.1) (col0 (outsAt0 m c (t.val - 1) (Nat.lt_of_le_of_lt (Nat.sub_le _ _) t.isLt)).2.2.2) (outsAt0 m c (t.val - 1) (Nat.lt_of_le_of_lt (Nat.sub_le _ _) t.isLt)).2.1 hprev
          (col0 (sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)) (col0 (sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)) (sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
          (soutB0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
          (fun r => (col0_apply _ r).trans (soutB1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 r))
          (fun r => (col0_apply _ r).trans (soutB2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 r))

/-- Where the output's block `t` sits in the output array: batch `t / 4`, every row and column. -/
theorem oblk_emb (t : Fin cfg0.N) (r : Fin 256) (cc : Fin 512) :
    ((cfg0.win 2).blk t).view.emb (ix3 (0 : Fin 1) r cc) = ix3 (batchOf t) r cc := by
  obtain ⟨e0, e1, e2⟩ := index2 t
  funext a
  apply Fin.ext
  match a with
  | ⟨0, _⟩ => show win0_2.index t (0 : Fin 3) * 1 + 1 * 0 = t.val / 4; omega
  | ⟨1, _⟩ => show win0_2.index t (1 : Fin 3) * 256 + 1 * r.val = r.val; omega
  | ⟨2, _⟩ => show win0_2.index t (2 : Fin 3) * 512 + 1 * cc.val = cc.val; omega

/-- WHAT A BATCH'S LAST POINT WRITES BACK is its block of `G`: numerator over denominator after four chunks. -/
theorem flushed_eq (c : Dev nD) (hx : AllReal (xarr m c)) (hq : AllReal (qarr m c)) (t : Fin cfg0.N)
    (hf : (cfg0.win 2).flush t = true) :
    (dats m 0 c).flushed 2 t = ((cfg0.win 2).blk t).view.read (Elt Ideal) (G (xarr m c) (qarr m c)) := by
  have h1 : t.val % 4 = 3 := (flush0_2 t).mp hf
  have h0 : ¬t.val % 4 = 0 := by omega
  have hinv := inv_outsAt m c hx hq t.val t.isLt (batchOf t) 4 rfl (by omega)
  rw [outsAt0_C m c t h0 h1] at hinv
  dsimp only at hinv
  rw [Cert.KernelIdeal.Value.flushed2_C m c t h0 h1, outC2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  funext j
  obtain ⟨r, cc, rfl⟩ : ∃ (r : Fin 256) (cc : Fin 512), j = ix3 (0 : Fin 1) r cc :=
    ⟨j 1, j 2, funext fun a => Fin.ext (by
      match a with
      | ⟨0, _⟩ => have h : (j 0).val < 1 := (j 0).isLt; show (j 0).val = 0; omega
      | ⟨1, _⟩ => rfl
      | ⟨2, _⟩ => rfl)⟩
  show k0_pay2 (F := Ideal) _ _ (ix3 (0 : Fin 1) r cc) = G (xarr m c) (qarr m c) (((cfg0.win 2).blk t).view.emb (ix3 (0 : Fin 1) r cc))
  rw [oblk_emb, pay2_apply, ← soutC0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, ← soutC2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 r]
  have hpool := quotient_eq_pooled (xarr m c) (qarr m c) (batchOf t) _ _ _ hinv r cc
  rw [col0_apply] at hpool
  exact hpool

/-- An index of the output array is in point `t`'s block iff each coordinate is in the block's range on its axis. -/
theorem mem_oblk (t : Fin cfg0.N) (i : S8x256x512.Idx) :
    i ∈ ((cfg0.win 2).blk t).view.set ↔ ∀ a : Fin 3, win0_2.index t a * S1x256x512.size a ≤ (i a).val
      ∧ (i a).val < win0_2.index t a * S1x256x512.size a + S1x256x512.size a := by
  show i ∈ ((View.whole main_v3).slice (win0_2.rect t)).set ↔ _
  rw [View.set_slice_whole, Rect.mem_set_unit]
  exact Iff.rfl

/-- Every index of the output array is in the block of its batch's last point, which writes back. -/
theorem cover (i : S8x256x512.Idx) :
    ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 512 := (i 2).isLt
  have hlt : 4 * (i 0).val + 3 < cfg0.N := by rw [N32]; omega
  obtain ⟨e0, e1, e2⟩ := index2 ⟨4 * (i 0).val + 3, hlt⟩
  have e0' : win0_2.index ⟨4 * (i 0).val + 3, hlt⟩ (0 : Fin 3) = (i 0).val := by
    rw [e0]; show (4 * (i 0).val + 3) / 4 = (i 0).val; omega
  refine ⟨⟨4 * (i 0).val + 3, hlt⟩, (flush0_2 _).mpr (by show (4 * (i 0).val + 3) % 4 = 3; omega), ?_⟩
  rw [mem_oblk]
  intro a
  match a with
  | ⟨0, _⟩ =>
    show win0_2.index ⟨4 * (i 0).val + 3, hlt⟩ (0 : Fin 3) * 1 ≤ (i 0).val ∧ (i 0).val < win0_2.index ⟨4 * (i 0).val + 3, hlt⟩ (0 : Fin 3) * 1 + 1
    omega
  | ⟨1, _⟩ =>
    show win0_2.index ⟨4 * (i 0).val + 3, hlt⟩ (1 : Fin 3) * 256 ≤ (i 1).val ∧ (i 1).val < win0_2.index ⟨4 * (i 0).val + 3, hlt⟩ (1 : Fin 3) * 256 + 256
    omega
  | ⟨2, _⟩ =>
    show win0_2.index ⟨4 * (i 0).val + 3, hlt⟩ (2 : Fin 3) * 512 ≤ (i 2).val ∧ (i 2).val < win0_2.index ⟨4 * (i 0).val + 3, hlt⟩ (2 : Fin 3) * 512 + 512
    omega

/-- THE OUTPUT ARRAY after the run is `G` of the arguments: the eight written-back blocks tile it. -/
theorem final (c : Dev nD) (hx : AllReal (xarr m c)) (hq : AllReal (qarr m c)) :
    (dats m 0 c).arrAt 2 cfg0.N = G (xarr m c) (qarr m c) :=
  (dats m 0 c).arrAt_eq_of_cover 2 (G (xarr m c) (qarr m c)) (fun t hf => flushed_eq m c hx hq t hf) fun i => cover i

/-- The kernel's run, read: with real arguments the output array ends at `G`, the arguments unchanged. -/
theorem run (hx : ∀ c : Dev nD, AllReal (xarr m c)) (hq : ∀ c : Dev nD, AllReal (qarr m c)) :
    θ_run defs (onTc (τ := τ) (main (F := Ideal))) ⟨m, fun _ => 0, ρ⟩ fun r => ∀ c : Dev nD,
      r.2.mem ((c : Thread nD τ).loc main_v3) = G (xarr m c) (qarr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hx c) (hq c)), (h c).2⟩)
    (Cert.KernelIdeal.Value.run_blocks m ρ)

end AttnPool.Kernel

end
-- ==== Proof.RefValue.lean ====
/-
  The reference program's result is the pooled-attention function `G` of its arguments.

  The reference computes logits `(∑_c x[b,n,c]·q[r,c])·κ`, subtracts their row maximum `M`, exponentiates,
  divides by the row sum and takes the weighted mean of the values.  With real inputs every stage is
  real; the row maximum is some real `M`, and by OnlineSoftmax.weights_mean the result does not depend on it.
-/
import proofs.«142094_g30648886624911_feedfinal_492_9_alg».proof.Proof.Gen.ReferenceIdeal.Read
import proofs.«142094_g30648886624911_feedfinal_492_9_alg».proof.Proof.Spec
import Idealize.ShloMosaic.PureOps.Ideal.Laws

noncomputable section

namespace AttnPool.RefValue

open Cert.ReferenceIdeal Cert.ReferenceIdeal.Gen Cert.ReferenceIdeal.Read Idealize.ShloMosaic Idealize.ShloMosaic.ValueIdx AttnPool

/-- A finite sum of real numbers, each read as an extended real, is the real sum read as an extended real. -/
theorem sum_coe {ι : Type*} (s : Finset ι) (f : ι → ℝ) :
    ∑ k ∈ s, ((f k : ℝ) : EReal) = ((∑ k ∈ s, f k : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The maximum of finitely many (at least one) real numbers and a start value below `⊤` is a real number. -/
theorem fold_max_real {ι : Type*} (s : Finset ι) (hs : s.Nonempty) (g : ι → EReal)
    (hg : ∀ k, ∃ r : ℝ, g k = (r : EReal)) (b : EReal) (hb : b ≠ ⊤) :
    ∃ M : ℝ, s.fold max b g = (M : EReal) := by
  have htop : s.fold max b g < ⊤ := by
    rw [Finset.fold_max_lt]
    refine ⟨lt_top_iff_ne_top.2 hb, fun k _ => ?_⟩
    obtain ⟨r, hr⟩ := hg k
    rw [hr]; exact EReal.coe_lt_top r
  obtain ⟨a, ha⟩ := hs
  obtain ⟨r, hr⟩ := hg a
  have hbot : ⊥ < s.fold max b g := by
    refine lt_of_lt_of_le (EReal.bot_lt_coe r) ?_
    rw [Finset.le_fold_max]
    exact Or.inr ⟨a, ha, hr.ge⟩
  exact ⟨(s.fold max b g).toReal, (EReal.coe_toReal htop.ne hbot.ne').symm⟩

section Stages

variable (x0 : (⟨S8x32768x512, .f32⟩ : BufTy).Contents (Elt Ideal)) (x1 : (⟨S256x512, .f32⟩ : BufTy).Contents (Elt Ideal))

/-- The scaled logits are real: the reference's third stage at `(b, r, n)` is the logit of row `r` against position `n`. -/
theorem v3_coe (hx : AllReal (S := SX) x0) (hq : AllReal (S := SQ) x1) (b : Fin 8) (r : Fin 256) (n : Fin 32768) :
    val_main_v3 (F := Ideal) x0 x1 (ix3 b r n) = ((logit x0 x1 b r n : ℝ) : EReal) := by
  rw [val_main_v3_apply, val_main_v1_apply, val_main_v0_apply, val_main_v2_apply, val_main_cst_apply]
  have hl : ∀ k : Fin 512, lidx_main_v0 (idx_main_v1 (ix3 b r n)) k = ix3 b n k := fun k =>
    funext fun a => Fin.ext (by match a with | ⟨0, _⟩ => rfl | ⟨1, _⟩ => rfl | ⟨2, _⟩ => rfl)
  have hr : ∀ k : Fin 512, ridx_main_v0 (idx_main_v1 (ix3 b r n)) k = ix2 r k := fun k =>
    funext fun a => Fin.ext (by match a with | ⟨0, _⟩ => rfl | ⟨1, _⟩ => rfl)
  have hs : ∀ k : Fin 512, x0 (lidx_main_v0 (idx_main_v1 (ix3 b r n)) k) * x1 (ridx_main_v0 (idx_main_v1 (ix3 b r n)) k)
      = ((Xr x0 b n k * Qr x1 r k : ℝ) : EReal) := fun k => by
    rw [hl k, hr k, Xr_coe hx, Qr_coe hq, EReal.coe_mul]
  rw [Finset.sum_congr rfl (fun k _ => hs k), sum_coe]
  show ((∑ k, Xr x0 b n k * Qr x1 r k : ℝ) : EReal) * κ = _
  rw [κ_coe, ← EReal.coe_mul, EReal.coe_eq_coe_iff]
  unfold logit
  rw [Finset.sum_mul]
  exact Finset.sum_congr rfl fun c _ => by ring

/-- Every entry of the scaled logits is real. -/
theorem v3_real (hx : AllReal (S := SX) x0) (hq : AllReal (S := SQ) x1) (i : S8x256x32768.Idx) :
    ∃ t : ℝ, val_main_v3 (F := Ideal) x0 x1 i = (t : EReal) := by
  obtain ⟨b, r, n, rfl⟩ : ∃ (b : Fin 8) (r : Fin 256) (n : Fin 32768), i = ix3 b r n := ⟨i 0, i 1, i 2, eq_ix3 i⟩
  exact ⟨_, v3_coe x0 x1 hx hq b r n⟩

/-- The row maximum the reference subtracts is some real number. -/
theorem rowmax_real (hx : AllReal (S := SX) x0) (hq : AllReal (S := SQ) x1) (b : Fin 8) (r : Fin 256) :
    ∃ M : ℝ, val_main_v6 (F := Ideal) x0 x1 (ix2 b r) = (M : EReal) := by
  rw [val_main_v6_apply, val_main_v5_apply, val_main_cst_1_apply]
  show ∃ M : ℝ, max (Ideal.ofBits .f32 0xFF800000#32) (val_main_v4 (F := Ideal) x0 x1 (ix2 b r)) = (M : EReal)
  rw [ofBits_neg_inf, max_bot_left]
  unfold val_main_v4
  rw [Host.reduce_eq_fold_single FloatOps.maximumf _ _ reducesTo_S8x256x32768_S8x256_d2 (by decide) h_S_]
  refine fold_max_real Finset.univ ⟨⟨0, by decide⟩, Finset.mem_univ _⟩ _ (fun k => v3_real x0 x1 hx hq _) _ ?_
  rw [val_main_cst_0_apply]
  show Ideal.ofBits .f32 0xFF800000#32 ≠ ⊤
  rw [ofBits_neg_inf]
  exact bot_ne_top

/-- The row maximum broadcast back along the positions: at `(b, r, n)` it is the row maximum at `(b, r)`. -/
theorem v8_eq (b : Fin 8) (r : Fin 256) (n : Fin 32768) :
    val_main_v8 (F := Ideal) x0 x1 (ix3 b r n) = val_main_v6 (F := Ideal) x0 x1 (ix2 b r) := by
  rw [val_main_v8_apply, val_main_v7_apply]
  exact congrArg (val_main_v6 (F := Ideal) x0 x1)
    (funext fun a => Fin.ext (by match a with | ⟨0, _⟩ => rfl | ⟨1, _⟩ => rfl))

/-- The exponentials: with the row maximum the real `M`, the tenth stage at `(b, r, n)` is `exp (logit − M)`. -/
theorem v10_coe (hx : AllReal (S := SX) x0) (hq : AllReal (S := SQ) x1) (b : Fin 8) (r : Fin 256) (n : Fin 32768)
    (M : ℝ) (hM : val_main_v6 (F := Ideal) x0 x1 (ix2 b r) = (M : EReal)) :
    val_main_v10 (F := Ideal) x0 x1 (ix3 b r n) = ((Real.exp (logit x0 x1 b r n - M) : ℝ) : EReal) := by
  rw [val_main_v10_apply, val_main_v9_apply, v8_eq, hM, v3_coe x0 x1 hx hq]
  show Ideal.exp (((logit x0 x1 b r n : ℝ) : EReal) - (M : EReal)) = _
  rw [← EReal.coe_sub, Ideal.exp_coe]

/-- The row sums of the exponentials. -/
theorem v11_coe (hx : AllReal (S := SX) x0) (hq : AllReal (S := SQ) x1) (b : Fin 8) (r : Fin 256)
    (M : ℝ) (hM : val_main_v6 (F := Ideal) x0 x1 (ix2 b r) = (M : EReal)) :
    val_main_v11 (F := Ideal) x0 x1 (ix2 b r)
      = ((∑ n : Fin 32768, Real.exp (logit x0 x1 b r n - M) : ℝ) : EReal) := by
  rw [val_main_v11_apply, val_main_cst_2_apply]
  have hi : ∀ k : Fin 32768, idx_main_v11 (ix2 b r) k = ix3 b r k := fun k =>
    funext fun a => Fin.ext (by match a with | ⟨0, _⟩ => rfl | ⟨1, _⟩ => rfl | ⟨2, _⟩ => rfl)
  have hs : ∀ k : Fin 32768, val_main_v10 (F := Ideal) x0 x1 (idx_main_v11 (ix2 b r) k)
      = ((Real.exp (logit x0 x1 b r k - M) : ℝ) : EReal) := fun k => by
    rw [hi k, v10_coe x0 x1 hx hq b r k M hM]
  rw [Finset.sum_congr rfl (fun k _ => hs k), sum_coe]
  show Ideal.ofBits .f32 0x00000000#32 + _ = _
  rw [Ideal.ofBits_zero_f32, zero_add]

/-- The row sum broadcast back along the positions. -/
theorem v13_eq (b : Fin 8) (r : Fin 256) (n : Fin 32768) :
    val_main_v13 (F := Ideal) x0 x1 (ix3 b r n) = val_main_v11 (F := Ideal) x0 x1 (ix2 b r) := by
  rw [val_main_v13_apply, val_main_v12_apply]
  exact congrArg (val_main_v11 (F := Ideal) x0 x1)
    (funext fun a => Fin.ext (by match a with | ⟨0, _⟩ => rfl | ⟨1, _⟩ => rfl))

/-- The normalised weights: a positive real row sum divides each exponential. -/
theorem v14_coe (hx : AllReal (S := SX) x0) (hq : AllReal (S := SQ) x1) (b : Fin 8) (r : Fin 256) (n : Fin 32768)
    (M : ℝ) (hM : val_main_v6 (F := Ideal) x0 x1 (ix2 b r) = (M : EReal)) :
    val_main_v14 (F := Ideal) x0 x1 (ix3 b r n)
      = ((Real.exp (logit x0 x1 b r n - M) / ∑ j : Fin 32768, Real.exp (logit x0 x1 b r j - M) : ℝ) : EReal) := by
  rw [val_main_v14_apply, v13_eq, v11_coe x0 x1 hx hq b r M hM, v10_coe x0 x1 hx hq b r n M hM]
  have hZ : (∑ j : Fin 32768, Real.exp (logit x0 x1 b r j - M)) ≠ 0 :=
    (Finset.sum_pos (fun _ _ => Real.exp_pos _) Finset.univ_nonempty).ne'
  show Ideal.div _ _ = _
  rw [Ideal.div_coe hZ, ← EReal.coe_mul, mul_one_div]

end Stages

/-- With real inputs the reference's last stage is `G`. -/
theorem ref_eq_G (x0 : (⟨S8x32768x512, .f32⟩ : BufTy).Contents (Elt Ideal)) (x1 : (⟨S256x512, .f32⟩ : BufTy).Contents (Elt Ideal))
    (hx : AllReal (S := SX) x0) (hq : AllReal (S := SQ) x1) :
    val_main_v15 (F := Ideal) x0 x1 = G x0 x1 := by
  funext i
  obtain ⟨b, r, c, rfl⟩ : ∃ (b : Fin 8) (r : Fin 256) (c : Fin 512), i = ix3 b r c := ⟨i 0, i 1, i 2, eq_ix3 i⟩
  obtain ⟨M, hM⟩ := rowmax_real x0 x1 hx hq b r
  rw [val_main_v15_apply]
  have hl : ∀ k : Fin 32768, lidx_main_v15 (ix3 b r c) k = ix3 b r k := fun k =>
    funext fun a => Fin.ext (by match a with | ⟨0, _⟩ => rfl | ⟨1, _⟩ => rfl | ⟨2, _⟩ => rfl)
  have hr : ∀ k : Fin 32768, ridx_main_v15 (ix3 b r c) k = ix3 b k c := fun k =>
    funext fun a => Fin.ext (by match a with | ⟨0, _⟩ => rfl | ⟨1, _⟩ => rfl | ⟨2, _⟩ => rfl)
  have hs : ∀ k : Fin 32768, val_main_v14 (F := Ideal) x0 x1 (lidx_main_v15 (ix3 b r c) k) * x0 (ridx_main_v15 (ix3 b r c) k)
      = (((Real.exp (logit x0 x1 b r k - M) / ∑ j : Fin 32768, Real.exp (logit x0 x1 b r j - M)) * Xr x0 b k c : ℝ) : EReal) :=
    fun k => by
      rw [hl k, hr k, v14_coe x0 x1 hx hq b r k M hM, Xr_coe hx, EReal.coe_mul]
  rw [Finset.sum_congr rfl (fun k _ => hs k), sum_coe]
  show _ = ((pooled x0 x1 b r c : ℝ) : EReal)
  rw [EReal.coe_eq_coe_iff]
  exact OnlineSoftmax.weights_mean Finset.univ (fun n => logit x0 x1 b r n) (fun n => Xr x0 b n c) M

end AttnPool.RefValue

end
-- ==== Proof.Finite.lean ====
/-
  The precondition says every entry of both inputs is a real number.

  It is printed as `all(|x| < +∞) ∧ all(|q| < +∞)` over the extended reals; `|a| = max a (-a)` is below `+∞`
  exactly when `a` is neither infinity.
-/
import proofs.«142094_g30648886624911_feedfinal_492_9_alg».proof.Pre_finite_inputs
import proofs.«142094_g30648886624911_feedfinal_492_9_alg».proof.Proof.Gen.Pre_finite_inputs
import proofs.«142094_g30648886624911_feedfinal_492_9_alg».proof.Proof.Spec
import Idealize.ShloMosaic.Lib.ReduceAll

noncomputable section

namespace AttnPool.Finite

open Idealize.ShloMosaic Idealize.ShloMosaic.ValueIdx AttnPool

/-- The rank-zero shape has exactly one index: the function out of the empty coordinate set. -/
instance : Subsingleton Cert.Pre_finite_inputs.S_.Idx := ⟨fun a b => funext fun d => d.elim0⟩

/-- The pattern `0x7F800000` (sign clear, exponent all ones, fraction zero) denotes `+∞`. -/
theorem ofBits_pos_inf : Ideal.ofBits .f32 0x7F800000#32 = (⊤ : EReal) := by
  show Ideal.ieee 8 23 (0x7F800000#32 : BitVec 32) = ⊤
  unfold Ideal.ieee
  dsimp only
  rw [if_pos (by decide), if_pos (by decide), if_neg (by decide)]

/-- The ordered less-than comparison answers one exactly where the order's `<` holds. -/
theorem lt_of_cmp_olt {a b : EReal} (h : Ideal.cmp .olt a b = 1#1) : a < b := by
  unfold Ideal.cmp at h
  dsimp only at h
  by_contra hn
  rw [decide_eq_false hn] at h
  exact absurd h (by decide)

/-- `|a| < +∞` on the extended reals: `a` is neither infinity.  For `a = ±∞` one of `a`, `-a` is `⊤`, so the
    maximum is `⊤`, which is not below itself; a real is neither infinity. -/
theorem real_of_abs_lt_top (a : EReal)
    (h : Ideal.cmp .olt (max a (-a)) (Ideal.ofBits .f32 0x7F800000#32) = 1#1) : a ≠ ⊥ ∧ a ≠ ⊤ := by
  rw [ofBits_pos_inf] at h
  have hlt := lt_of_cmp_olt h
  induction a using EReal.rec with
  | bot =>
    rw [EReal.neg_bot, max_eq_right bot_le] at hlt
    exact absurd hlt (lt_irrefl _)
  | coe r => exact ⟨EReal.coe_ne_bot r, EReal.coe_ne_top r⟩
  | top =>
    rw [max_eq_left le_top] at hlt
    exact absurd hlt (lt_irrefl _)

/-- Where the printed precondition is all ones, both arrays are real everywhere. -/
theorem allReal_of_pre (x0 : FVec Ideal Cert.Pre_finite_inputs.S8x32768x512 .f32) (x1 : FVec Ideal Cert.Pre_finite_inputs.S256x512 .f32)
    (h : Cert.Pre_finite_inputs.fn (F := Ideal) x0 x1 = fun _ => 1#1) :
    AllReal (S := SX) x0 ∧ AllReal (S := SQ) x1 := by
  have h0 := congrFun h ValueIdx.ix0
  unfold Cert.Pre_finite_inputs.fn at h0
  dsimp only at h0
  change IntOp.andi _ _ = 1#1 at h0
  obtain ⟨hA, hB⟩ := IntOp.andi_eq_one.1 h0
  exact ⟨fun i => real_of_abs_lt_top (x0 i) (Host.reduce_andi_all _ _ _ _ _ hA i),
    fun i => real_of_abs_lt_top (x1 i) (Host.reduce_andi_all _ _ _ _ _ hB i)⟩

end AttnPool.Finite

end
-- ==== Proof.lean ====
/-
  The certificate's claim, assembled.

  The kernel is a single-head attention pooling computed chunk by chunk with a running base, denominator
  and numerator; the reference is the plain softmax-weighted mean.  With real inputs (the precondition,
  Finite.lean) both output arrays are the pooled-attention function `G` of the arguments (Spec.lean): the
  kernel's by the running invariant along its 32 grid points (KernelValue.lean over Invariant.lean), the
  reference's stage by stage (RefValue.lean).  The law joining them is that a softmax does not change when
  every logit is shifted by one real number (OnlineSoftmax.lean), which is why the kernel's finite starting
  base and the reference's row maximum both cancel; it needs every value to be a real number, and that is
  where the precondition is used.  No operation of the kernel needed restating for the reading over the extended reals, so the fourth conjunct
  holds trivially.
-/
import proofs.«142094_g30648886624911_feedfinal_492_9_alg».proof.Defs
import proofs.«142094_g30648886624911_feedfinal_492_9_alg».proof.Proof.Gen.Kernel
import proofs.«142094_g30648886624911_feedfinal_492_9_alg».proof.Proof.Gen.Kernel.Skeleton
import proofs.«142094_g30648886624911_feedfinal_492_9_alg».proof.Proof.Gen.Kernel.Launch
import proofs.«142094_g30648886624911_feedfinal_492_9_alg».proof.Proof.Gen.Kernel.Points
import proofs.«142094_g30648886624911_feedfinal_492_9_alg».proof.Proof.Gen.Kernel.Frame
import proofs.«142094_g30648886624911_feedfinal_492_9_alg».proof.Proof.Gen.KernelIdeal
import proofs.«142094_g30648886624911_feedfinal_492_9_alg».proof.Proof.Gen.KernelIdeal.Skeleton
import proofs.«142094_g30648886624911_feedfinal_492_9_alg».proof.Proof.Gen.KernelIdeal.Launch
import proofs.«142094_g30648886624911_feedfinal_492_9_alg».proof.Proof.Gen.KernelIdeal.Points
import proofs.«142094_g30648886624911_feedfinal_492_9_alg».proof.Proof.Gen.KernelIdeal.Frame
import proofs.«142094_g30648886624911_feedfinal_492_9_alg».proof.Proof.Gen.ReferenceIdeal
import proofs.«142094_g30648886624911_feedfinal_492_9_alg».proof.Proof.Gen.Pre_finite_inputs
import proofs.«142094_g30648886624911_feedfinal_492_9_alg».proof.Proof.Gen.KernelIdeal.Value
import proofs.«142094_g30648886624911_feedfinal_492_9_alg».proof.Proof.Gen.ReferenceIdeal.Run
import proofs.«142094_g30648886624911_feedfinal_492_9_alg».proof.Proof.Gen.ReferenceIdeal.Read
import proofs.«142094_g30648886624911_feedfinal_492_9_alg».proof.Proof.KernelValue
import proofs.«142094_g30648886624911_feedfinal_492_9_alg».proof.Proof.RefValue
import proofs.«142094_g30648886624911_feedfinal_492_9_alg».proof.Proof.Finite
import Idealize.ShloMosaic.Adequacy
import Idealize.ShloMosaic.Init

noncomputable section

namespace Cert.Proof

open Idealize.ShloMosaic Idealize.ShloMosaic.TcCoe Idealize.SL.Sem

/-- The three programs run, fault-free, and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Over the extended reals, from real inputs, both programs end with the pooled-attention array `G` of the arguments. -/
theorem algebraic : Cert.algebraic_KernelIdeal_ReferenceIdeal := by
  intro m ρ m' ρ' hpre hagree
  have hfin : ∀ c : Dev Cert.KernelIdeal.nD,
      AttnPool.AllReal (AttnPool.Kernel.xarr m c) ∧ AttnPool.AllReal (AttnPool.Kernel.qarr m c) :=
    fun c => AttnPool.Finite.allReal_of_pre _ _ (hpre c)
  refine ⟨fun c => AttnPool.G (AttnPool.Kernel.xarr m c) (AttnPool.Kernel.qarr m c),
    AttnPool.Kernel.run m ρ (fun c => (hfin c).1) (fun c => (hfin c).2), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v15_eq]
  exact AttnPool.RefValue.ref_eq_G _ _ (hfin c).1 (hfin c).2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
